-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x900x92 : Shape := ⟨3, ![64, 900, 92]⟩
abbrev S64x900x4 : Shape := ⟨3, ![64, 900, 4]⟩
abbrev S64x200x4 : Shape := ⟨3, ![64, 200, 4]⟩
abbrev S64x200 : Shape := ⟨2, ![64, 200]⟩
abbrev S_ : Shape := ⟨0, ![]⟩

class Facts : Prop where
  bcast_S_S64x900x92 : S_.BroadcastsInDim S64x900x92 (![] : Fin 0 → Fin S64x900x92.rank)
  reducesTo_S64x900x92_S_d0_1_2 : S64x900x92.ReducesTo [0, 1, 2] S_
  h_S_ : 0 < S_.numel
  bcast_S_S64x900x4 : S_.BroadcastsInDim S64x900x4 (![] : Fin 0 → Fin S64x900x4.rank)
  reducesTo_S64x900x4_S_d0_1_2 : S64x900x4.ReducesTo [0, 1, 2] S_
  bcast_S_S64x200x4 : S_.BroadcastsInDim S64x200x4 (![] : Fin 0 → Fin S64x200x4.rank)
  reducesTo_S64x200x4_S_d0_1_2 : S64x200x4.ReducesTo [0, 1, 2] S_
  bcast_S_S64x200 : S_.BroadcastsInDim S64x200 (![] : Fin 0 → Fin S64x200.rank)
  reducesTo_S64x200_S_d0_1 : S64x200.ReducesTo [0, 1] S_

variable [Facts]

def fn_part1 {F : FTy → Type} [FloatOps F] (main_arg3 : IVec S64x200 32) (main_v13 : IVec S_ 1) (main_v15 : IVec S64x200 1) (main_c_5 : IVec S_ 32) : IVec S_ 1 :=
  let main_v16 : IVec S64x200 32 := broadcastInDim S64x200 ![] bcast_S_S64x200 main_c_5
  let main_v17 : IVec S64x200 1 := cmpi .slt main_arg3 main_v16
  let main_v18 : IVec S64x200 1 := andi main_v15 main_v17
  let main_c_6 : IVec S_ 1 := constantI S_ 1 1#1
  let main_v19 : IVec S_ 1 := (fun x v => Host.reduce IntOp.andi x v reducesTo_S64x200_S_d0_1 h_S_) main_v18 main_c_6
  let main_v20 : IVec S_ 1 := andi main_v13 main_v19
  main_v20

def fn {F : FTy → Type} [FloatOps F] (main_arg0 : FVec F S64x900x92 .f32) (main_arg1 : FVec F S64x900x4 .f32) (main_arg2 : FVec F S64x200x4 .f32) (main_arg3 : IVec S64x200 32) : IVec S_ 1 :=
  let main_v0 : FVec F S64x900x92 .f32 := Host.absf main_arg0
  let main_cst : FVec F S_ .f32 := constant S_ .f32 0x7F800000#32
  let main_v1 : FVec F S64x900x92 .f32 := broadcastInDim S64x900x92 ![] bcast_S_S64x900x92 main_cst
  let main_v2 : IVec S64x900x92 1 := cmpf .olt main_v0 main_v1
  let main_c : IVec S_ 1 := constantI S_ 1 1#1
  let main_v3 : IVec S_ 1 := (fun x v => Host.reduce IntOp.andi x v reducesTo_S64x900x92_S_d0_1_2 h_S_) main_v2 main_c
  let main_v4 : FVec F S64x900x4 .f32 := Host.absf main_arg1
  let main_cst_0 : FVec F S_ .f32 := constant S_ .f32 0x7F800000#32
  let main_v5 : FVec F S64x900x4 .f32 := broadcastInDim S64x900x4 ![] bcast_S_S64x900x4 main_cst_0
  let main_v6 : IVec S64x900x4 1 := cmpf .olt main_v4 main_v5
  let main_c_1 : IVec S_ 1 := constantI S_ 1 1#1
  let main_v7 : IVec S_ 1 := (fun x v => Host.reduce IntOp.andi x v reducesTo_S64x900x4_S_d0_1_2 h_S_) main_v6 main_c_1
  let main_v8 : IVec S_ 1 := andi main_v3 main_v7
  let main_v9 : FVec F S64x200x4 .f32 := Host.absf main_arg2
  let main_cst_2 : FVec F S_ .f32 := constant S_ .f32 0x7F800000#32
  let main_v10 : FVec F S64x200x4 .f32 := broadcastInDim S64x200x4 ![] bcast_S_S64x200x4 main_cst_2
  let main_v11 : IVec S64x200x4 1 := cmpf .olt main_v9 main_v10
  let main_c_3 : IVec S_ 1 := constantI S_ 1 1#1
  let main_v12 : IVec S_ 1 := (fun x v => Host.reduce IntOp.andi x v reducesTo_S64x200x4_S_d0_1_2 h_S_) main_v11 main_c_3
  let main_v13 : IVec S_ 1 := andi main_v8 main_v12
  let main_c_4 : IVec S_ 32 := constantI S_ 32 0#32
  let main_v14 : IVec S64x200 32 := broadcastInDim S64x200 ![] bcast_S_S64x200 main_c_4
  let main_v15 : IVec S64x200 1 := cmpi .sge main_arg3 main_v14
  let main_c_5 : IVec S_ 32 := constantI S_ 32 92#32
  fn_part1 (F := F) main_arg3 main_v13 main_v15 main_c_5
-- ==== Kernel.lean ====
abbrev S64x900x92 : Shape := ⟨3, ![64, 900, 92]⟩
abbrev S64x900x4 : Shape := ⟨3, ![64, 900, 4]⟩
abbrev S64x200x4 : Shape := ⟨3, ![64, 200, 4]⟩
abbrev S64x200 : Shape := ⟨2, ![64, 200]⟩
abbrev S64x1x200 : Shape := ⟨3, ![64, 1, 200]⟩
abbrev S64x900x200 : Shape := ⟨3, ![64, 900, 200]⟩
abbrev S1x900x92 : Shape := ⟨3, ![1, 900, 92]⟩
abbrev S1x900x4 : Shape := ⟨3, ![1, 900, 4]⟩
abbrev S1x200x4 : Shape := ⟨3, ![1, 200, 4]⟩
abbrev S1x1x200 : Shape := ⟨3, ![1, 1, 200]⟩
abbrev S1x900x200 : Shape := ⟨3, ![1, 900, 200]⟩
abbrev S900x92 : Shape := ⟨2, ![900, 92]⟩
abbrev S900 : Shape := ⟨1, ![900]⟩
abbrev S900x1 : Shape := ⟨2, ![900, 1]⟩
abbrev S1x200 : Shape := ⟨2, ![1, 200]⟩
abbrev S92x200 : Shape := ⟨2, ![92, 200]⟩
abbrev S900x200 : Shape := ⟨2, ![900, 200]⟩
abbrev S900x4 : Shape := ⟨2, ![900, 4]⟩
abbrev S200x4 : Shape := ⟨2, ![200, 4]⟩
abbrev S200x1 : Shape := ⟨2, ![200, 1]⟩
abbrev S200 : Shape := ⟨1, ![200]⟩

abbrev nBuf : Space → Nat
  | .hbm => 6
  | .vmem => 10
  | .smem => 0
  | _ => 0

abbrev bufTy : (tb : Table) → Fin (tcTables nBuf tb) → BufTy
  | .hbm, ⟨0, _⟩ => ⟨S64x900x92, .f32⟩
  | .hbm, ⟨1, _⟩ => ⟨S64x900x4, .f32⟩
  | .hbm, ⟨2, _⟩ => ⟨S64x200x4, .f32⟩
  | .hbm, ⟨3, _⟩ => ⟨S64x200, .i32⟩
  | .hbm, ⟨4, _⟩ => ⟨S64x1x200, .i32⟩
  | .hbm, ⟨5, _⟩ => ⟨S64x900x200, .f32⟩
  | .local _ .vmem, ⟨0, _⟩ => ⟨S1x900x92, .f32⟩
  | .local _ .vmem, ⟨1, _⟩ => ⟨S1x900x92, .f32⟩
  | .local _ .vmem, ⟨2, _⟩ => ⟨S1x900x4, .f32⟩
  | .local _ .vmem, ⟨3, _⟩ => ⟨S1x900x4, .f32⟩
  | .local _ .vmem, ⟨4, _⟩ => ⟨S1x200x4, .f32⟩
  | .local _ .vmem, ⟨5, _⟩ => ⟨S1x200x4, .f32⟩
  | .local _ .vmem, ⟨6, _⟩ => ⟨S1x1x200, .i32⟩
  | .local _ .vmem, ⟨7, _⟩ => ⟨S1x1x200, .i32⟩
  | .local _ .vmem, ⟨8, _⟩ => ⟨S1x900x200, .f32⟩
  | .local _ .vmem, ⟨9, _⟩ => ⟨S1x900x200, .f32⟩
  | _, _ => ⟨S64x900x92, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x900x92 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x900x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x200x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x200 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x900x200 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S64x200_S64x1x200 : S64x200.ShapeCasts S64x1x200
  inb_S1x900x92_S1x900x92_0_0_0 : ∀ a, (![0, 0, 0] : Fin 3 → Nat) a + S1x900x92.size a ≤ S1x900x92.size a
  h_S1x900x92 : 0 < S1x900x92.numel
  shapeCasts_S1x900x92_S900x92 : S1x900x92.ShapeCasts S900x92
  reduces_S900x92_S900 : S900x92.Reduces [1] S900
  shapeCasts_S900_S900x1 : S900.ShapeCasts S900x1
  broadcasts_S900x1_S900x92 : S900x1.Broadcasts S900x92
  inb_S1x1x200_S1x1x200_0_0_0 : ∀ a, (![0, 0, 0] : Fin 3 → Nat) a + S1x1x200.size a ≤ S1x1x200.size a
  h_S1x1x200 : 0 < S1x1x200.numel
  shapeCasts_S1x1x200_S1x200 : S1x1x200.ShapeCasts S1x200
  iota_S92x200_d0_w32 : S92x200.Iotas .tc 32 [0]
  broadcasts_S1x200_S92x200 : S1x200.Broadcasts S92x200
  natLt_1_32 : 1 < 32
  bitsLt_bf16_f32 : FTy.bits .bf16 < FTy.bits .f32
  inb_S1x900x4_S1x900x4_0_0_0 : ∀ a, (![0, 0, 0] : Fin 3 → Nat) a + S1x900x4.size a ≤ S1x900x4.size a
  h_S1x900x4 : 0 < S1x900x4.numel
  shapeCasts_S1x900x4_S900x4 : S1x900x4.ShapeCasts S900x4
  inb_S1x200x4_S1x200x4_0_0_0 : ∀ a, (![0, 0, 0] : Fin 3 → Nat) a + S1x200x4.size a ≤ S1x200x4.size a
  h_S1x200x4 : 0 < S1x200x4.numel
  shapeCasts_S1x200x4_S200x4 : S1x200x4.ShapeCasts S200x4
  slices_S900x4_o0_0_S900x1 : S900x4.Slices ![0, 0] S900x1
  slices_S900x4_o0_1_S900x1 : S900x4.Slices ![0, 1] S900x1
  slices_S900x4_o0_2_S900x1 : S900x4.Slices ![0, 2] S900x1
  slices_S900x4_o0_3_S900x1 : S900x4.Slices ![0, 3] S900x1
  slices_S200x4_o0_0_S200x1 : S200x4.Slices ![0, 0] S200x1
  shapeCasts_S200x1_S200 : S200x1.ShapeCasts S200
  shapeCasts_S200_S1x200 : S200.ShapeCasts S1x200
  slices_S200x4_o0_1_S200x1 : S200x4.Slices ![0, 1] S200x1
  slices_S200x4_o0_2_S200x1 : S200x4.Slices ![0, 2] S200x1
  slices_S200x4_o0_3_S200x1 : S200x4.Slices ![0, 3] S200x1
  broadcasts_S900x1_S900x200 : S900x1.Broadcasts S900x200
  broadcasts_S1x200_S900x200 : S1x200.Broadcasts S900x200
  inb_S1x900x200_S1x900x200_0_0_0 : ∀ a, (![0, 0, 0] : Fin 3 → Nat) a + S1x900x200.size a ≤ S1x900x200.size a
  h_S1x900x200 : 0 < S1x900x200.numel
  shapeCasts_S1x900x200_S900x200 : S1x900x200.ShapeCasts S900x200
  shapeCasts_S900x200_S1x900x200 : S900x200.ShapeCasts S1x900x200
  dot_S900x92_S92x200_S900x200_1_0_0_1_n_n_wf : DotDims.WF S900x92 S92x200 S900x200 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x900x92.size a ≤ S64x900x92.size a
  hwx0_0 : ∀ i : grid0.Coords, EltTy.bits .f32 = 32 ∨ (Rect.block (s := S64x900x92) S1x900x92.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x900x4.size a ≤ S64x900x4.size a
  hwx0_1 : ∀ i : grid0.Coords, EltTy.bits .f32 = 32 ∨ (Rect.block (s := S64x900x4) S1x900x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x200x4.size a ≤ S64x200x4.size a
  hwx0_2 : ∀ i : grid0.Coords, EltTy.bits .f32 = 32 ∨ (Rect.block (s := S64x200x4) S1x200x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x200.size a ≤ S64x1x200.size a
  hwx0_3 : ∀ i : grid0.Coords, EltTy.bits .i32 = 32 ∨ (Rect.block (s := S64x1x200) S1x1x200.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x900x200.size a ≤ S64x900x200.size a
  hwx0_4 : ∀ i : grid0.Coords, EltTy.bits .f32 = 32 ∨ (Rect.block (s := S64x900x200) S1x900x200.size (cc0_transform_4 i) (hinb0_4 i)).WholeWords (EltTy.packing .f32)

variable [Facts₀]

def dot_S900x92_S92x200_S900x200_1_0_0_1_n_n : DotDims S900x92 S92x200 S900x200 where
  lhsContracting := [1]
  rhsContracting := [0]
  lhsNonContracting := [0]
  rhsNonContracting := [1]
  lhsBatch := []
  rhsBatch := []
  wf := dot_S900x92_S92x200_S900x200_1_0_0_1_n_n_wf

abbrev win0_0 : Pipeline.Window sig grid0 :=
  Pipeline.Window.ofSpec (Memref.whole main_arg0) S1x900x92.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x900x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x200x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x200.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x900x200.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x900x92 : Shape := ⟨3, ![64, 900, 92]⟩
abbrev S64x900x4 : Shape := ⟨3, ![64, 900, 4]⟩
abbrev S64x200x4 : Shape := ⟨3, ![64, 200, 4]⟩
abbrev S64x200 : Shape := ⟨2, ![64, 200]⟩
abbrev S_ : Shape := ⟨0, ![]⟩
abbrev S64x900 : Shape := ⟨2, ![64, 900]⟩
abbrev S64x900x1 : Shape := ⟨3, ![64, 900, 1]⟩
abbrev S64x1x200 : Shape := ⟨3, ![64, 1, 200]⟩
abbrev S64x900x200 : Shape := ⟨3, ![64, 900, 200]⟩
abbrev S64x900x200x1 : Shape := ⟨4, ![64, 900, 200, 1]⟩
abbrev S1 : Shape := ⟨1, ![1]⟩
abbrev S1x1x1x1 : Shape := ⟨4, ![1, 1, 1, 1]⟩
abbrev S64x900x1x4 : Shape := ⟨4, ![64, 900, 1, 4]⟩
abbrev S64x1x200x4 : Shape := ⟨4, ![64, 1, 200, 4]⟩
abbrev S64x900x200x4 : Shape := ⟨4, ![64, 900, 200, 4]⟩
abbrev S64x200x1 : Shape := ⟨3, ![64, 200, 1]⟩
abbrev S64x900x1x2 : Shape := ⟨4, ![64, 900, 1, 2]⟩
abbrev S64x1x200x2 : Shape := ⟨4, ![64, 1, 200, 2]⟩
abbrev S64x900x200x2 : Shape := ⟨4, ![64, 900, 200, 2]⟩

abbrev nBuf : Space → Nat
  | .hbm => 195
  | .vmem => 0
  | .smem => 0
  | _ => 0

abbrev hbmTy0_0 (i : Nat) : BufTy := match i % 128 with
  | 0 => ⟨S64x900x92, .f32⟩
  | 1 => ⟨S64x900x4, .f32⟩
  | 2 => ⟨S64x200x4, .f32⟩
  | 3 => ⟨S64x200, .i32⟩
  | 4 => ⟨S_, .f32⟩
  | 5 => ⟨S64x900, .f32⟩
  | 6 => ⟨S_, .f32⟩
  | 7 => ⟨S64x900, .f32⟩
  | 8 => ⟨S64x900, .f32⟩
  | 9 => ⟨S64x900x1, .f32⟩
  | 10 => ⟨S64x900x92, .f32⟩
  | 11 => ⟨S64x900x92, .f32⟩
  | 12 => ⟨S64x900x92, .f32⟩
  | 13 => ⟨S_, .f32⟩
  | 14 => ⟨S64x900, .f32⟩
  | 15 => ⟨S64x900x1, .f32⟩
  | 16 => ⟨S64x900x92, .f32⟩
  | 17 => ⟨S64x900x92, .f32⟩
  | 18 => ⟨S64x1x200, .i32⟩
  | 19 => ⟨S64x900x200, .i32⟩
  | 20 => ⟨S_, .i32⟩
  | 21 => ⟨S64x900x200, .i32⟩
  | 22 => ⟨S64x900x200, .i1⟩
  | 23 => ⟨S_, .i32⟩
  | 24 => ⟨S64x900x200, .i32⟩
  | 25 => ⟨S64x900x200, .i32⟩
  | 26 => ⟨S64x900x200, .i32⟩
  | 27 => ⟨S64x900x200x1, .i32⟩
  | 28 => ⟨S1, .i32⟩
  | 29 => ⟨S_, .i32⟩
  | 30 => ⟨S64x900x200x1, .i32⟩
  | 31 => ⟨S64x900x200x1, .i1⟩
  | 32 => ⟨S1x1x1x1, .i32⟩
  | 33 => ⟨S64x900x200x1, .i32⟩
  | 34 => ⟨S64x900x200x1, .i1⟩
  | 35 => ⟨S64x900x200x1, .i1⟩
  | 36 => ⟨S_, .i1⟩
  | 37 => ⟨S64x900x200, .i1⟩
  | 38 => ⟨S64x900x200, .f32⟩
  | 39 => ⟨S_, .f32⟩
  | 40 => ⟨S64x900x200, .f32⟩
  | 41 => ⟨S64x900x200, .f32⟩
  | 42 => ⟨S64x900x200, .f32⟩
  | 43 => ⟨S64x900x1x4, .f32⟩
  | 44 => ⟨S64x1x200x4, .f32⟩
  | 45 => ⟨S64x900x200x4, .f32⟩
  | 46 => ⟨S64x900x200x4, .f32⟩
  | 47 => ⟨S64x900x200x4, .f32⟩
  | 48 => ⟨S64x900x200x4, .f32⟩
  | 49 => ⟨S_, .f32⟩
  | 50 => ⟨S64x900x200, .f32⟩
  | 51 => ⟨S64x900x1, .f32⟩
  | 52 => ⟨S64x900, .f32⟩
  | 53 => ⟨S64x900x1, .f32⟩
  | 54 => ⟨S64x900, .f32⟩
  | 55 => ⟨S64x900x1, .f32⟩
  | 56 => ⟨S64x900, .f32⟩
  | 57 => ⟨S64x900x1, .f32⟩
  | 58 => ⟨S64x900, .f32⟩
  | 59 => ⟨S_, .f32⟩
  | 60 => ⟨S64x900, .f32⟩
  | 61 => ⟨S64x900, .f32⟩
  | 62 => ⟨S64x900, .f32⟩
  | 63 => ⟨S_, .f32⟩
  | 64 => ⟨S64x900, .f32⟩
  | 65 => ⟨S64x900, .f32⟩
  | 66 => ⟨S64x900, .f32⟩
  | 67 => ⟨S_, .f32⟩
  | 68 => ⟨S64x900, .f32⟩
  | 69 => ⟨S64x900, .f32⟩
  | 70 => ⟨S64x900, .f32⟩
  | 71 => ⟨S_, .f32⟩
  | 72 => ⟨S64x900, .f32⟩
  | 73 => ⟨S64x900, .f32⟩
  | 74 => ⟨S64x900, .f32⟩
  | 75 => ⟨S64x900x1, .f32⟩
  | 76 => ⟨S64x900x1, .f32⟩
  | 77 => ⟨S64x900x1, .f32⟩
  | 78 => ⟨S64x900x1, .f32⟩
  | 79 => ⟨S64x900x4, .f32⟩
  | 80 => ⟨S64x200x1, .f32⟩
  | 81 => ⟨S64x200, .f32⟩
  | 82 => ⟨S64x200x1, .f32⟩
  | 83 => ⟨S64x200, .f32⟩
  | 84 => ⟨S64x200x1, .f32⟩
  | 85 => ⟨S64x200, .f32⟩
  | 86 => ⟨S64x200x1, .f32⟩
  | 87 => ⟨S64x200, .f32⟩
  | 88 => ⟨S_, .f32⟩
  | 89 => ⟨S64x200, .f32⟩
  | 90 => ⟨S64x200, .f32⟩
  | 91 => ⟨S64x200, .f32⟩
  | 92 => ⟨S_, .f32⟩
  | 93 => ⟨S64x200, .f32⟩
  | 94 => ⟨S64x200, .f32⟩
  | 95 => ⟨S64x200, .f32⟩
  | 96 => ⟨S_, .f32⟩
  | 97 => ⟨S64x200, .f32⟩
  | 98 => ⟨S64x200, .f32⟩
  | 99 => ⟨S64x200, .f32⟩
  | 100 => ⟨S_, .f32⟩
  | 101 => ⟨S64x200, .f32⟩
  | 102 => ⟨S64x200, .f32⟩
  | 103 => ⟨S64x200, .f32⟩
  | 104 => ⟨S64x200x1, .f32⟩
  | 105 => ⟨S64x200x1, .f32⟩
  | 106 => ⟨S64x200x1, .f32⟩
  | 107 => ⟨S64x200x1, .f32⟩
  | 108 => ⟨S64x200x4, .f32⟩
  | 109 => ⟨S64x900x1, .f32⟩
  | 110 => ⟨S64x900, .f32⟩
  | 111 => ⟨S64x900x1, .f32⟩
  | 112 => ⟨S64x900, .f32⟩
  | 113 => ⟨S64x900, .f32⟩
  | 114 => ⟨S64x900x1, .f32⟩
  | 115 => ⟨S64x900, .f32⟩
  | 116 => ⟨S64x900x1, .f32⟩
  | 117 => ⟨S64x900, .f32⟩
  | 118 => ⟨S64x900, .f32⟩
  | 119 => ⟨S64x900, .f32⟩
  | 120 => ⟨S64x200x1, .f32⟩
  | 121 => ⟨S64x200, .f32⟩
  | 122 => ⟨S64x200x1, .f32⟩
  | 123 => ⟨S64x200, .f32⟩
  | 124 => ⟨S64x200, .f32⟩
  | 125 => ⟨S64x200x1, .f32⟩
  | 126 => ⟨S64x200, .f32⟩
  | 127 => ⟨S64x200x1, .f32⟩
  | _ => ⟨S64x900x92, .f32⟩

abbrev hbmTy0_1 (i : Nat) : BufTy := match i % 128 with
  | 0 => ⟨S64x200, .f32⟩
  | 1 => ⟨S64x200, .f32⟩
  | 2 => ⟨S64x200, .f32⟩
  | 3 => ⟨S64x900x1x4, .f32⟩
  | 4 => ⟨S64x1x200x4, .f32⟩
  | 5 => ⟨S64x900x1x2, .f32⟩
  | 6 => ⟨S64x1x200x2, .f32⟩
  | 7 => ⟨S64x900x200x2, .f32⟩
  | 8 => ⟨S64x900x200x2, .f32⟩
  | 9 => ⟨S64x900x200x2, .f32⟩
  | 10 => ⟨S64x900x1x2, .f32⟩
  | 11 => ⟨S64x1x200x2, .f32⟩
  | 12 => ⟨S64x900x200x2, .f32⟩
  | 13 => ⟨S64x900x200x2, .f32⟩
  | 14 => ⟨S64x900x200x2, .f32⟩
  | 15 => ⟨S64x900x200x2, .f32⟩
  | 16 => ⟨S_, .f32⟩
  | 17 => ⟨S_, .f32⟩
  | 18 => ⟨S64x900x200x2, .f32⟩
  | 19 => ⟨S64x900x200x2, .f32⟩
  | 20 => ⟨S64x900x200x1, .f32⟩
  | 21 => ⟨S64x900x200, .f32⟩
  | 22 => ⟨S64x900x200x1, .f32⟩
  | 23 => ⟨S64x900x200, .f32⟩
  | 24 => ⟨S64x900x200, .f32⟩
  | 25 => ⟨S64x900x1, .f32⟩
  | 26 => ⟨S64x1x200, .f32⟩
  | 27 => ⟨S64x900x200, .f32⟩
  | 28 => ⟨S64x900x200, .f32⟩
  | 29 => ⟨S64x900x200, .f32⟩
  | 30 => ⟨S64x900x200, .f32⟩
  | 31 => ⟨S64x900x200, .f32⟩
  | 32 => ⟨S64x900x1x2, .f32⟩
  | 33 => ⟨S64x1x200x2, .f32⟩
  | 34 => ⟨S64x900x200x2, .f32⟩
  | 35 => ⟨S64x900x200x2, .f32⟩
  | 36 => ⟨S64x900x200x2, .f32⟩
  | 37 => ⟨S64x900x1x2, .f32⟩
  | 38 => ⟨S64x1x200x2, .f32⟩
  | 39 => ⟨S64x900x200x2, .f32⟩
  | 40 => ⟨S64x900x200x2, .f32⟩
  | 41 => ⟨S64x900x200x2, .f32⟩
  | 42 => ⟨S64x900x200x2, .f32⟩
  | 43 => ⟨S_, .f32⟩
  | 44 => ⟨S_, .f32⟩
  | 45 => ⟨S64x900x200x2, .f32⟩
  | 46 => ⟨S64x900x200x2, .f32⟩
  | 47 => ⟨S64x900x200x1, .f32⟩
  | 48 => ⟨S64x900x200, .f32⟩
  | 49 => ⟨S64x900x200x1, .f32⟩
  | 50 => ⟨S64x900x200, .f32⟩
  | 51 => ⟨S64x900x200, .f32⟩
  | 52 => ⟨S64x900x200, .f32⟩
  | 53 => ⟨S64x900x200, .f32⟩
  | 54 => ⟨S64x900x200, .f32⟩
  | 55 => ⟨S64x900x200, .f32⟩
  | 56 => ⟨S_, .f32⟩
  | 57 => ⟨S64x900x200, .f32⟩
  | 58 => ⟨S64x900x200, .f32⟩
  | 59 => ⟨S_, .f32⟩
  | 60 => ⟨S64x900x200, .f32⟩
  | 61 => ⟨S64x900x200, .f32⟩
  | 62 => ⟨S64x900x200, .f32⟩
  | 63 => ⟨S_, .f32⟩
  | 64 => ⟨S64x900x200, .f32⟩
  | 65 => ⟨S64x900x200, .f32⟩
  | 66 => ⟨S64x900x200, .f32⟩
  | _ => ⟨S64x900x92, .f32⟩

abbrev hbmTy (i : Nat) : BufTy := match i / 128 with
  | 0 => hbmTy0_0 i
  | 1 => hbmTy0_1 i
  | _ => ⟨S64x900x92, .f32⟩

abbrev bufTy : (tb : Table) → Fin (tcTables nBuf tb) → BufTy
  | .hbm, ⟨i, _⟩ => hbmTy i
  | _, _ => ⟨S64x900x92, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_cst : Ref sig .tc := ⟨.hbm, 39, rfl⟩
abbrev main_call0_v14 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_cst_2 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_cst_3 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_cst_4 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_cst_5 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_cst_6 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_7 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_8 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_cst_9 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_10 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_cst_11 : Ref sig .tc := ⟨.hbm, 144, rfl⟩
abbrev main_call1_v0 : Ref sig .tc := ⟨.hbm, 145, rfl⟩
abbrev main_call1_v1 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_cst_12 : Ref sig .tc := ⟨.hbm, 171, rfl⟩
abbrev main_call2_v0 : Ref sig .tc := ⟨.hbm, 172, rfl⟩
abbrev main_call2_v1 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_cst_13 : Ref sig .tc := ⟨.hbm, 184, rfl⟩
abbrev main_v141 : Ref sig .tc := ⟨.hbm, 185, rfl⟩
abbrev main_v142 : Ref sig .tc := ⟨.hbm, 186, rfl⟩
abbrev main_cst_14 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_cst_15 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩

abbrev nD : Nat := 1
abbrev τ : Topo := Topo.v7x

variable {F : FTy → Type} [FloatOps F]

class Facts₀ : Prop where
  reducesTo_S64x900x92_S64x900_d2 : S64x900x92.ReducesTo [2] S64x900
  h_S_ : 0 < S_.numel
  bcast_S_S64x900 : S_.BroadcastsInDim S64x900 (![] : Fin 0 → Fin S64x900.rank)
  bcast_S64x900_S64x900x1_0_1 : S64x900.BroadcastsInDim S64x900x1 (![0, 1] : Fin 2 → Fin S64x900x1.rank)
  bcast_S64x900x1_S64x900x92_0_1_2 : S64x900x1.BroadcastsInDim S64x900x92 (![0, 1, 2] : Fin 3 → Fin S64x900x92.rank)
  bcast_S64x200_S64x1x200_0_2 : S64x200.BroadcastsInDim S64x1x200 (![0, 2] : Fin 2 → Fin S64x1x200.rank)
  bcast_S64x1x200_S64x900x200_0_1_2 : S64x1x200.BroadcastsInDim S64x900x200 (![0, 1, 2] : Fin 3 → Fin S64x900x200.rank)
  bcast_S_S64x900x200 : S_.BroadcastsInDim S64x900x200 (![] : Fin 0 → Fin S64x900x200.rank)
  shapeCasts_S64x900x200_S64x900x200x1 : S64x900x200.ShapeCasts S64x900x200x1
  bcast_S_S64x900x200x1 : S_.BroadcastsInDim S64x900x200x1 (![] : Fin 0 → Fin S64x900x200x1.rank)
  bcast_S1_S1x1x1x1_3 : S1.BroadcastsInDim S1x1x1x1 (![3] : Fin 1 → Fin S1x1x1x1.rank)
  bcast_S1x1x1x1_S64x900x200x1_0_1_2_3 : S1x1x1x1.BroadcastsInDim S64x900x200x1 (![0, 1, 2, 3] : Fin 4 → Fin S64x900x200x1.rank)
  reducesTo_S64x900x200x1_S64x900x200_d3 : S64x900x200x1.ReducesTo [3] S64x900x200
  bcast_S64x900x4_S64x900x1x4_0_1_3 : S64x900x4.BroadcastsInDim S64x900x1x4 (![0, 1, 3] : Fin 3 → Fin S64x900x1x4.rank)
  bcast_S64x200x4_S64x1x200x4_0_2_3 : S64x200x4.BroadcastsInDim S64x1x200x4 (![0, 2, 3] : Fin 3 → Fin S64x1x200x4.rank)
  bcast_S64x900x1x4_S64x900x200x4_0_1_2_3 : S64x900x1x4.BroadcastsInDim S64x900x200x4 (![0, 1, 2, 3] : Fin 4 → Fin S64x900x200x4.rank)
  bcast_S64x1x200x4_S64x900x200x4_0_1_2_3 : S64x1x200x4.BroadcastsInDim S64x900x200x4 (![0, 1, 2, 3] : Fin 4 → Fin S64x900x200x4.rank)
  reducesTo_S64x900x200x4_S64x900x200_d3 : S64x900x200x4.ReducesTo [3] S64x900x200
  slices_S64x900x4_S64x900x1_0_0_0 : S64x900x4.Slices ![0, 0, 0] S64x900x1
  shapeCasts_S64x900x1_S64x900 : S64x900x1.ShapeCasts S64x900
  slices_S64x900x4_S64x900x1_0_0_1 : S64x900x4.Slices ![0, 0, 1] S64x900x1
  slices_S64x900x4_S64x900x1_0_0_2 : S64x900x4.Slices ![0, 0, 2] S64x900x1
  slices_S64x900x4_S64x900x1_0_0_3 : S64x900x4.Slices ![0, 0, 3] S64x900x1
  concatenates_S64x900x1_S64x900x1_S64x900x1_S64x900x1_S64x900x4_d2 : Shape.Concatenates [S64x900x1, S64x900x1, S64x900x1, S64x900x1] S64x900x4 2
  slices_S64x200x4_S64x200x1_0_0_0 : S64x200x4.Slices ![0, 0, 0] S64x200x1
  shapeCasts_S64x200x1_S64x200 : S64x200x1.ShapeCasts S64x200
  slices_S64x200x4_S64x200x1_0_0_1 : S64x200x4.Slices ![0, 0, 1] S64x200x1
  slices_S64x200x4_S64x200x1_0_0_2 : S64x200x4.Slices ![0, 0, 2] S64x200x1
  slices_S64x200x4_S64x200x1_0_0_3 : S64x200x4.Slices ![0, 0, 3] S64x200x1
  bcast_S_S64x200 : S_.BroadcastsInDim S64x200 (![] : Fin 0 → Fin S64x200.rank)
  bcast_S64x200_S64x200x1_0_1 : S64x200.BroadcastsInDim S64x200x1 (![0, 1] : Fin 2 → Fin S64x200x1.rank)
  concatenates_S64x200x1_S64x200x1_S64x200x1_S64x200x1_S64x200x4_d2 : Shape.Concatenates [S64x200x1, S64x200x1, S64x200x1, S64x200x1] S64x200x4 2
  slices_S64x900x1x4_S64x900x1x2_0_0_0_0 : S64x900x1x4.Slices ![0, 0, 0, 0] S64x900x1x2
  slices_S64x1x200x4_S64x1x200x2_0_0_0_0 : S64x1x200x4.Slices ![0, 0, 0, 0] S64x1x200x2
  bcast_S64x900x1x2_S64x900x200x2_0_1_2_3 : S64x900x1x2.BroadcastsInDim S64x900x200x2 (![0, 1, 2, 3] : Fin 4 → Fin S64x900x200x2.rank)
  bcast_S64x1x200x2_S64x900x200x2_0_1_2_3 : S64x1x200x2.BroadcastsInDim S64x900x200x2 (![0, 1, 2, 3] : Fin 4 → Fin S64x900x200x2.rank)
  slices_S64x900x1x4_S64x900x1x2_0_0_0_2 : S64x900x1x4.Slices ![0, 0, 0, 2] S64x900x1x2
  slices_S64x1x200x4_S64x1x200x2_0_0_0_2 : S64x1x200x4.Slices ![0, 0, 0, 2] S64x1x200x2
  bcast_S_S64x900x200x2 : S_.BroadcastsInDim S64x900x200x2 (![] : Fin 0 → Fin S64x900x200x2.rank)
  slices_S64x900x200x2_S64x900x200x1_0_0_0_0 : S64x900x200x2.Slices ![0, 0, 0, 0] S64x900x200x1
  shapeCasts_S64x900x200x1_S64x900x200 : S64x900x200x1.ShapeCasts S64x900x200
  slices_S64x900x200x2_S64x900x200x1_0_0_0_1 : S64x900x200x2.Slices ![0, 0, 0, 1] S64x900x200x1
  bcast_S64x900x1_S64x900x200_0_1_2 : S64x900x1.BroadcastsInDim S64x900x200 (![0, 1, 2] : Fin 3 → Fin S64x900x200.rank)
  gather_S64x900x92_S64x900x200x1_S64x900x200_n_2_01_01_2_3_111_wf : GatherDims.WF S64x900x92 S64x900x200x1 S64x900x200 [] [2] [0, 1] [2] [0, 1] 3 ![1, 1, 1]

variable [Facts₀]

def gather_S64x900x92_S64x900x200x1_S64x900x200_n_2_01_01_2_3_111 : GatherDims S64x900x92 S64x900x200x1 S64x900x200 where
  offsetDims := []
  collapsedSliceDims := [2]
  operandBatchingDims := [0, 1]
  startIndicesBatchingDims := [0, 1]
  startIndexMap := [2]
  indexVectorDim := 3
  sliceSizes := ![1, 1, 1]
  wf := gather_S64x900x92_S64x900x200x1_S64x900x200_n_2_01_01_2_3_111_wf

class Facts : Prop extends Facts₀ where

variable [Facts]
-- ==== Proof.PreLabels.lean ====
/-
  What the precondition says about the labels: every label word is a class number, 0 ≤ labels[b, t] < 92.

  The precondition's last conjunct is `all ((labels ≥ 0) ∧ (labels < 92))`, both comparisons signed. A 32-bit word
  that is nonnegative as a signed integer has its top bit clear, so its signed and unsigned readings agree, and
  "below 92" then bounds the natural number the word denotes. This is the only part of the precondition the
  value proof uses: the two programs compute the same extended real whatever the float inputs are.
-/
import proofs.«403522_j82987358093468_2_alg».proof.Pre_finite_inputs
import Idealize.ShloMosaic.Lib.ReduceAll
import Idealize.ShloMosaic.Lib.Affine
import Idealize.ShloMosaic.Lib.ValueIdx
import Idealize.ShloMosaic.Lib.StableHlo.Predicate

noncomputable section

namespace Cert.MatchCost.PreLabels

open Idealize.ShloMosaic Idealize.ShloMosaic.ValueIdx Cert.Pre_finite_inputs

/-- A word that is at least 0 and below 92 as a signed integer denotes a natural number below 92. -/
theorem toNat_lt_of_signed (w : BitVec 32) (h0 : IntOp.cmpi .sge w 0#32 = 1#1) (h1 : IntOp.cmpi .slt w 92#32 = 1#1) :
    w.toNat < 92 := by
  simp only [IntOp.cmpi, StableHlo.Predicate.ofBool_eq_one_iff, BitVec.sle, BitVec.slt, decide_eq_true_eq] at h0 h1
  have hw := w.isLt
  have e0 : (0#32 : BitVec 32).toInt = 0 := by decide
  have e92 : (92#32 : BitVec 32).toInt = 92 := by decide
  rw [e0] at h0
  rw [e92] at h1
  rw [BitVec.toInt_eq_toNat_cond] at h0 h1
  by_cases hc : 2 * w.toNat < 2 ^ 32
  · rw [if_pos hc] at h0 h1; omega
  · rw [if_neg hc] at h0 h1; omega

instance : Subsingleton S_.Idx := ⟨fun a b => funext fun d => d.elim0⟩

/-- Under the precondition every label word denotes a class number below 92. -/
theorem labels_lt [Facts] {F : FTy → Type} [FloatOps F] (a0 : FVec F S64x900x92 .f32) (a1 : FVec F S64x900x4 .f32)
    (a2 : FVec F S64x200x4 .f32) (a3 : IVec S64x200 32) (h : fn (F := F) a0 a1 a2 a3 = fun _ => 1#1)
    (i : S64x200.Idx) : (a3 i).toNat < 92 := by
  have e := congrFun h ix0
  unfold fn fn_part1 at e
  dsimp only at e
  obtain ⟨-, e2⟩ := IntOp.andi_eq_one.1 e
  have e3 := Host.reduce_andi_all _ _ _ _ _ e2 i
  obtain ⟨h0, h1⟩ := IntOp.andi_eq_one.1 e3
  exact toNat_lt_of_signed _ h0 h1

end Cert.MatchCost.PreLabels

end
-- ==== Proof.Spec.lean ====
/-
  The cost matrix a set-prediction matcher minimises, written once as a function of its four arguments.

  For batch member `b`, query `q` and target `t` the entry is

      5 · ‖p − g‖₁  +  1 · (−softmax(z)[k])  +  2 · (−GIoU(p, g))

  where `z = logits[b, q, ·]` is the query's row of 92 class scores, `k = labels[b, t]` the target's class,
  and `p = pred_boxes[b, q, ·]`, `g = boxes[b, t, ·]` are two boxes in (centre x, centre y, width, height) form.
  Everything is read on the extended reals: sums, differences and products are `EReal`'s, a quotient is
  `Ideal.div`, the exponential is `Ideal.exp`, and a float literal is the extended real its pattern denotes
  (the same patterns occur in both programs, so none of them is ever evaluated except the zero).

  The class enters as a number `k : Fin 92`: the label words are assumed to lie in `[0, 92)`, which is what makes
  "the softmax entry the label names" meaningful, and each program is related to this function under that
  hypothesis on its label words.
-/
import Idealize.ShloMosaic.PureOps.Ideal
import Idealize.ShloMosaic.Lib.ValueIdx

noncomputable section

namespace Cert.MatchCost

open Idealize.ShloMosaic Idealize.ShloMosaic.ValueIdx

/-! ## Shapes -/

abbrev SLogits : Shape := ⟨3, ![64, 900, 92]⟩
abbrev SPred : Shape := ⟨3, ![64, 900, 4]⟩
abbrev STgt : Shape := ⟨3, ![64, 200, 4]⟩
abbrev SLab : Shape := ⟨2, ![64, 200]⟩
abbrev SOut : Shape := ⟨3, ![64, 900, 200]⟩

/-! ## The literals, as the extended reals their patterns denote -/

abbrev cNegInf : EReal := Ideal.ofBits .f32 0xFF800000#32
abbrev cZero : EReal := Ideal.ofBits .f32 0x00000000#32
abbrev cHalf : EReal := Ideal.ofBits .f32 0x3F000000#32
abbrev cOne : EReal := Ideal.ofBits .f32 0x3F800000#32
abbrev cTwo : EReal := Ideal.ofBits .f32 0x40000000#32
abbrev cFive : EReal := Ideal.ofBits .f32 0x40A00000#32

/-! ## The class cost: a softmax entry -/

/-- The largest score of a row: the fold of `max` from −∞'s pattern over the 92 classes. -/
def rowMax (z : Fin 92 → EReal) : EReal := (Finset.univ : Finset (Fin 92)).fold max cNegInf z

/-- `exp (z c − max z)`: a score shifted by the row's maximum, exponentiated. -/
def expShift (z : Fin 92 → EReal) (c : Fin 92) : EReal := Ideal.exp (z c - rowMax z)

/-- The softmax of a row at class `k`: its shifted exponential over the sum of all of them. -/
def softmax (z : Fin 92 → EReal) (k : Fin 92) : EReal := Ideal.div (expShift z k) (∑ c : Fin 92, expShift z c)

/-! ## The box costs -/

/-- `|x|` on the extended reals. -/
def eabs (x : EReal) : EReal := max x (-x)

/-- The L1 distance of two boxes, coordinate by coordinate, summed from the left. -/
def l1 (p g : Fin 4 → EReal) : EReal :=
  eabs (p 0 - g 0) + eabs (p 1 - g 1) + eabs (p 2 - g 2) + eabs (p 3 - g 3)

/-- The low corner of an interval given by its centre and width. -/
def lo (c w : EReal) : EReal := c - cHalf * w

/-- The high corner of an interval given by its centre and width. -/
def hi (c w : EReal) : EReal := c + cHalf * w

/-- A box's area, from its corners. -/
def area (p : Fin 4 → EReal) : EReal :=
  (hi (p 0) (p 2) - lo (p 0) (p 2)) * (hi (p 1) (p 3) - lo (p 1) (p 3))

/-- The area of the intersection of two boxes: per axis the overlap of the two intervals, clipped at zero. -/
def inter (p g : Fin 4 → EReal) : EReal :=
  max (min (hi (p 0) (p 2)) (hi (g 0) (g 2)) - max (lo (p 0) (p 2)) (lo (g 0) (g 2))) cZero
    * max (min (hi (p 1) (p 3)) (hi (g 1) (g 3)) - max (lo (p 1) (p 3)) (lo (g 1) (g 3))) cZero

/-- The area of the union of two boxes. -/
def union (p g : Fin 4 → EReal) : EReal := area p + area g - inter p g

/-- The area of the smallest box enclosing both: per axis the span of the two intervals, clipped at zero. -/
def hull (p g : Fin 4 → EReal) : EReal :=
  max (max (hi (p 0) (p 2)) (hi (g 0) (g 2)) - min (lo (p 0) (p 2)) (lo (g 0) (g 2))) cZero
    * max (max (hi (p 1) (p 3)) (hi (g 1) (g 3)) - min (lo (p 1) (p 3)) (lo (g 1) (g 3))) cZero

/-- The generalised intersection over union: IoU minus the share of the enclosing box outside the union. -/
def giou (p g : Fin 4 → EReal) : EReal :=
  Ideal.div (inter p g) (union p g) - Ideal.div (hull p g - union p g) (hull p g)

/-! ## The matching cost -/

/-- One entry of the cost matrix, from the query's score row `z`, its box `p`, the target's box `g` and class `k`. -/
def cost (z : Fin 92 → EReal) (p g : Fin 4 → EReal) (k : Fin 92) : EReal :=
  (cFive * l1 p g + cOne * (-(softmax z k))) + cTwo * (-(giou p g))

/-- The entry at batch member `b`, query `q`, target `t` of the whole arrays. -/
def costAt (L : SLogits.Idx → EReal) (P : SPred.Idx → EReal) (B : STgt.Idx → EReal) (ℓ : Fin 64 → Fin 200 → Fin 92)
    (b : Fin 64) (q : Fin 900) (t : Fin 200) : EReal :=
  cost (fun c => L (ix3 b q c)) (fun a => P (ix3 b q a)) (fun a => B (ix3 b t a)) (ℓ b t)

/-- The cost matrix as one function of the argument arrays and the targets' classes. -/
def G (L : SLogits.Idx → EReal) (P : SPred.Idx → EReal) (B : STgt.Idx → EReal) (ℓ : Fin 64 → Fin 200 → Fin 92) :
    SOut.Idx → EReal :=
  fun i => costAt L P B ℓ (i 0) (i 1) (i 2)

theorem G_ix3 (L : SLogits.Idx → EReal) (P : SPred.Idx → EReal) (B : STgt.Idx → EReal) (ℓ : Fin 64 → Fin 200 → Fin 92)
    (b : Fin 64) (q : Fin 900) (t : Fin 200) : G L P B ℓ (ix3 b q t) = costAt L P B ℓ b q t := rfl

end Cert.MatchCost

end
-- ==== Proof.KerClass.lean ====
/-
  The kernel's class cost at an entry. For query row q and target column t of one batch member's block the body
  computes 0 − ∑_c softmax(z)[c] · [c = label t], the product of the softmax matrix with the one-hot matrix of the
  labels; since exactly one class equals a label that lies in [0, 92), the sum is the softmax entry the label names.
-/
import proofs.«403522_j82987358093468_2_alg».proof.Proof.Gen.KernelIdeal.Skeleton
import proofs.«403522_j82987358093468_2_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.MatchCost.KerClass

open Idealize.ShloMosaic Idealize.ShloMosaic.ValueIdx Cert.KernelIdeal Cert.KernelIdeal.Gen Cert.MatchCost

/-- A vector of one entry per row, seen as a column: the entry of row `q`. -/
theorem column_apply {α : Type} (x : S900.Idx → α) (q : Fin 900) (u : Fin 1) :
    shapeCast S900x1 x shapeCasts_S900_S900x1 (ix2 q u) = x (ix1 q) :=
  shapeCast_apply x _ _ _ (by
    have hu : u.val = 0 := by omega
    rw [Shape.rowMajor_val_one, Shape.rowMajor_val_two]
    show q.val = q.val * 1 + u.val
    rw [hu, Nat.mul_one, Nat.add_zero])

/-- A column repeated along every class reads the row's entry. -/
theorem repeat_apply {α : Type} (x : S900x1.Idx → α) (q : Fin 900) (c : Fin 92) :
    broadcastTo S900x92 x broadcasts_S900x1_S900x92 (ix2 q c) = x (ix2 q (0 : Fin 1)) := by
  refine broadcastTo_apply x _ (ix2 q c) (ix2 q (0 : Fin 1)) fun ax => ?_
  match ax with
  | ⟨0, _⟩ => rfl
  | ⟨1, _⟩ => rfl

/-- The index over row `q` with class `c` put on the reduced axis is `(q, c)`. -/
theorem lift_row (q : Fin 900) (c : Fin 92) : reduces_S900x92_S900.lift (ix1 q) c = ix2 q c := by
  funext a; apply Fin.ext
  match a with
  | ⟨0, _⟩ => rfl
  | ⟨1, _⟩ => rfl

/-- The row maximum the kernel takes is the specification's: the fold of `max` from −∞'s pattern over the 92 classes. -/
theorem rowmax_apply (x : FVec Ideal S900x92 .f32) (q : Fin 900) :
    multiReduction (F := Ideal) .maximumf [1] S900 x 0xFF800000#32 reduces_S900x92_S900 (.inl rfl) rfl (ix1 q)
      = rowMax fun c => x (ix2 q c) := by
  refine (Ideal.multiReduction_maximumf_single x _ reduces_S900x92_S900 _ _ (ix1 q)).trans ?_
  have e : (x ∘ reduces_S900x92_S900.lift (ix1 q)) = fun c : Fin 92 => x (ix2 q c) :=
    funext fun c => congrArg x (lift_row q c)
  exact congrArg (fun f : Fin 92 → EReal => (Finset.univ : Finset (Fin 92)).fold max cNegInf f) e

/-- The row sum the kernel takes is the sum over the 92 classes. -/
theorem rowsum_apply (x : FVec Ideal S900x92 .f32) (q : Fin 900) :
    multiReduction (F := Ideal) .add [1] S900 x 0x00000000#32 reduces_S900x92_S900 (.inl rfl) rfl (ix1 q)
      = ∑ c : Fin 92, x (ix2 q c) := by
  refine (Ideal.multiReduction_add_single x _ reduces_S900x92_S900 _ _ (ix1 q)).trans ?_
  exact Finset.sum_congr rfl fun c _ => congrArg x (lift_row q c)

/-! ## The one-hot matrix of the labels -/

/-- A condition bit, widened to a word and read as a signed integer, is `1` where it holds and `0` where not. -/
theorem bit_value (p : Bool) :
    FloatOps.sitofp (F := Ideal) .f32 ((BitVec.ofBool p).setWidth 32) = if p then (1 : EReal) else 0 := by
  cases p
  · show (((0#32 : BitVec 32).toInt : ℝ) : EReal) = 0
    simp
  · show (((1#32 : BitVec 32).toInt : ℝ) : EReal) = 1
    have h : (1#32 : BitVec 32).toInt = 1 := by decide
    rw [h]; simp

/-- Two class numbers have the same 32-bit word exactly when they are the same class (both lie below 2^32). -/
theorem word_eq_iff (c k : Fin 92) : (BitVec.ofNat 32 c.val == BitVec.ofNat 32 k.val) = decide (c = k) := by
  by_cases h : c = k
  · subst h; simp
  · have hne : BitVec.ofNat 32 c.val ≠ BitVec.ofNat 32 k.val := by
      intro e
      have e' := congrArg BitVec.toNat e
      rw [BitVec.toNat_ofNat, BitVec.toNat_ofNat] at e'
      have hc := c.isLt; have hk := k.isLt
      exact h (Fin.ext (by omega))
    simp [h, hne]

/-- The class counter along axis 0 of the [92, 200] grid reads the class's own number. -/
theorem counter_apply (c : Fin 92) (t : Fin 200) :
    iota .tc S92x200 32 [0] iota_S92x200_d0_w32 (ix2 c t) = BitVec.ofNat 32 c.val := by
  show BitVec.ofNat 32 (0 * 92 + c.val) = _
  rw [Nat.zero_mul, Nat.zero_add]

/-- The label row repeated over the classes reads target `t`'s label word. -/
theorem labels_apply (v11 : Vec Ideal S1x1x200 .i32) (c : Fin 92) (t : Fin 200) :
    broadcastTo S92x200 (shapeCast S1x200 v11 shapeCasts_S1x1x200_S1x200) broadcasts_S1x200_S92x200 (ix2 c t)
      = v11 (ix3 (0 : Fin 1) (0 : Fin 1) t) :=
  (broadcastTo_1b_ab_apply _ _ c t).trans (shapeCast_1ab_ab_apply v11 _ (0 : Fin 1) t)

/-- The one-hot matrix: entry (c, t) is `1` where class `c` is target `t`'s label and `0` elsewhere. -/
theorem onehot_apply (v11 : Vec Ideal S1x1x200 .i32) (κ : Fin 200 → Fin 92)
    (hκ : ∀ t : Fin 200, v11 (ix3 (0 : Fin 1) (0 : Fin 1) t) = BitVec.ofNat 32 (κ t).val) (c : Fin 92) (t : Fin 200) :
    sitofp (F := Ideal) .f32 (extui 32 (cmpi .eq (iota .tc S92x200 32 [0] iota_S92x200_d0_w32)
        (broadcastTo S92x200 (shapeCast S1x200 v11 shapeCasts_S1x1x200_S1x200) broadcasts_S1x200_S92x200)) natLt_1_32) (ix2 c t)
      = if c = κ t then (1 : EReal) else 0 := by
  show FloatOps.sitofp (F := Ideal) .f32 ((BitVec.ofBool (iota .tc S92x200 32 [0] iota_S92x200_d0_w32 (ix2 c t)
      == broadcastTo S92x200 (shapeCast S1x200 v11 shapeCasts_S1x1x200_S1x200) broadcasts_S1x200_S92x200 (ix2 c t))).setWidth 32) = _
  rw [counter_apply, labels_apply, hκ, word_eq_iff, bit_value]
  by_cases h : c = κ t <;> simp [h]

/-! ## The product of the softmax matrix with the one-hot matrix -/

/-- Of the left operand's index at output `i` and contraction position `k`, the row is the output's row … -/
theorem lhs_row (i : S900x200.Idx) (k : dot_S900x92_S92x200_S900x200_1_0_0_1_n_n.contr.Idx) :
    (dot_S900x92_S92x200_S900x200_1_0_0_1_n_n.lhsIdx i k 0).val = (i 0).val := by
  unfold DotDims.lhsIdx
  rw [dif_neg (show ¬(0 : Fin S900x92.rank) ∈ dot_S900x92_S92x200_S900x200_1_0_0_1_n_n.lhsBatch by decide),
    dif_pos (show (0 : Fin S900x92.rank) ∈ dot_S900x92_S92x200_S900x200_1_0_0_1_n_n.lhsNonContracting by decide)]
  rfl

/-- … and the column is the contraction position. -/
theorem lhs_col (i : S900x200.Idx) (k : dot_S900x92_S92x200_S900x200_1_0_0_1_n_n.contr.Idx) :
    (dot_S900x92_S92x200_S900x200_1_0_0_1_n_n.lhsIdx i k 1).val = (k ⟨0, by decide⟩).val :=
  dot_S900x92_S92x200_S900x200_1_0_0_1_n_n.lhsIdx_val_of_single rfl i k

/-- Of the right operand's index, the row is the contraction position … -/
theorem rhs_row (i : S900x200.Idx) (k : dot_S900x92_S92x200_S900x200_1_0_0_1_n_n.contr.Idx) :
    (dot_S900x92_S92x200_S900x200_1_0_0_1_n_n.rhsIdx i k 0).val = (k ⟨0, by decide⟩).val :=
  dot_S900x92_S92x200_S900x200_1_0_0_1_n_n.rhsIdx_val_of_single rfl i k

/-- … and the column is the output's column. -/
theorem rhs_col (i : S900x200.Idx) (k : dot_S900x92_S92x200_S900x200_1_0_0_1_n_n.contr.Idx) :
    (dot_S900x92_S92x200_S900x200_1_0_0_1_n_n.rhsIdx i k 1).val = (i 1).val := by
  unfold DotDims.rhsIdx
  rw [dif_neg (show ¬(1 : Fin S92x200.rank) ∈ dot_S900x92_S92x200_S900x200_1_0_0_1_n_n.rhsBatch by decide),
    dif_pos (show (1 : Fin S92x200.rank) ∈ dot_S900x92_S92x200_S900x200_1_0_0_1_n_n.rhsNonContracting by decide)]
  rfl

/-- The matrix product into the zero accumulator, read at (q, t): the sum over the 92 classes of row `q` of the left
    operand times column `t` of the right. -/
theorem product_apply (A : FVec Ideal S900x92 .bf16) (B : FVec Ideal S92x200 .bf16) (q : Fin 900) (t : Fin 200) :
    matmul dot_S900x92_S92x200_S900x200_1_0_0_1_n_n none A B (constant (F := Ideal) S900x200 .f32 0x00000000#32) (ix2 q t)
      = ∑ c : Fin 92, A (ix2 q c) * B (ix2 c t) := by
  show FloatOps.matmul dot_S900x92_S92x200_S900x200_1_0_0_1_n_n none A B (constant (F := Ideal) S900x200 .f32 0x00000000#32) (ix2 q t) = _
  rw [Ideal.matmul_constant_zero_apply, ← Equiv.sum_comp (contrEquiv1 dot_S900x92_S92x200_S900x200_1_0_0_1_n_n 92 rfl rfl).symm]
  refine Finset.sum_congr rfl fun c _ => ?_
  have hk := contrEquiv1_symm_val dot_S900x92_S92x200_S900x200_1_0_0_1_n_n 92 rfl rfl c
  have el : dot_S900x92_S92x200_S900x200_1_0_0_1_n_n.lhsIdx (ix2 q t) ((contrEquiv1 dot_S900x92_S92x200_S900x200_1_0_0_1_n_n 92 rfl rfl).symm c) = ix2 q c :=
    funext fun a => Fin.ext (by
      match a with
      | ⟨0, _⟩ => exact lhs_row _ _
      | ⟨1, _⟩ => exact (lhs_col _ _).trans hk)
  have er : dot_S900x92_S92x200_S900x200_1_0_0_1_n_n.rhsIdx (ix2 q t) ((contrEquiv1 dot_S900x92_S92x200_S900x200_1_0_0_1_n_n 92 rfl rfl).symm c) = ix2 c t :=
    funext fun a => Fin.ext (by
      match a with
      | ⟨0, _⟩ => exact (rhs_row _ _).trans hk
      | ⟨1, _⟩ => exact rhs_col _ _)
  rw [el, er]

/-! ## The softmax matrix -/

/-- A number per row put back on every class of its row (the kept axis of a row reduction). -/
def spread (r : FVec Ideal S900 .f32) : FVec Ideal S900x92 .f32 :=
  broadcastTo S900x92 (shapeCast S900x1 r shapeCasts_S900_S900x1) broadcasts_S900x1_S900x92

theorem spread_apply (r : FVec Ideal S900 .f32) (q : Fin 900) (c : Fin 92) : spread r (ix2 q c) = r (ix1 q) :=
  (repeat_apply _ q c).trans (column_apply r q 0)

/-- The scores shifted by their row's maximum and exponentiated, as the kernel forms them. -/
def shifted (x : FVec Ideal S900x92 .f32) : FVec Ideal S900x92 .f32 :=
  exp (subf x (spread (multiReduction (F := Ideal) .maximumf [1] S900 x 0xFF800000#32 reduces_S900x92_S900 (.inl rfl) rfl)))

theorem shifted_apply (x : FVec Ideal S900x92 .f32) (q : Fin 900) (c : Fin 92) :
    shifted x (ix2 q c) = expShift (fun c => x (ix2 q c)) c := by
  show Ideal.exp (x (ix2 q c) - spread _ (ix2 q c)) = _
  rw [spread_apply, rowmax_apply]
  rfl

/-- The softmax matrix as the kernel forms it: each shifted exponential over its row's sum. -/
def smx (x : FVec Ideal S900x92 .f32) : FVec Ideal S900x92 .f32 :=
  divf (shifted x)
    (spread (multiReduction (F := Ideal) .add [1] S900 (shifted x) 0x00000000#32 reduces_S900x92_S900 (.inl rfl) rfl))

theorem smx_apply (x : FVec Ideal S900x92 .f32) (q : Fin 900) (c : Fin 92) :
    smx x (ix2 q c) = softmax (fun c => x (ix2 q c)) c := by
  show Ideal.div (shifted x (ix2 q c)) (spread _ (ix2 q c)) = _
  rw [spread_apply, rowsum_apply, shifted_apply]
  exact congrArg (Ideal.div _) (Finset.sum_congr rfl fun c' _ => shifted_apply x q c')

/-- The one-hot matrix of the labels as the kernel forms it: a class counter compared with the repeated label row. -/
def hot (v11 : Vec Ideal S1x1x200 .i32) : FVec Ideal S92x200 .f32 :=
  sitofp .f32 (extui 32 (cmpi .eq (iota .tc S92x200 32 [0] iota_S92x200_d0_w32)
    (broadcastTo S92x200 (shapeCast S1x200 v11 shapeCasts_S1x1x200_S1x200) broadcasts_S1x200_S92x200)) natLt_1_32)

/-- The payload is zero minus the product of the softmax matrix with the one-hot matrix (both narrowed, which
    changes nothing on the extended reals). -/
theorem pay2_eq (v0 : Vec Ideal S1x900x92 .f32) (v11 : Vec Ideal S1x1x200 .i32) :
    k0_pay2 (F := Ideal) v0 v11
      = subf (broadcast S900x200 (Scalar.ofBits (F := Ideal) .f32 0x00000000#32))
          (matmul dot_S900x92_S92x200_S900x200_1_0_0_1_n_n none
            (truncf .bf16 (smx (shapeCast S900x92 v0 shapeCasts_S1x900x92_S900x92)) bitsLt_bf16_f32)
            (truncf .bf16 (hot v11) bitsLt_bf16_f32) (constant (F := Ideal) S900x200 .f32 0x00000000#32)) := rfl

/-- The class payload at (q, t): minus the softmax of the query's score row at the target's class. -/
theorem class_eq (v0 : Vec Ideal S1x900x92 .f32) (v11 : Vec Ideal S1x1x200 .i32) (κ : Fin 200 → Fin 92)
    (hκ : ∀ t : Fin 200, v11 (ix3 (0 : Fin 1) (0 : Fin 1) t) = BitVec.ofNat 32 (κ t).val) (q : Fin 900) (t : Fin 200) :
    k0_pay2 (F := Ideal) v0 v11 (ix2 q t) = -(softmax (fun c => v0 (ix3 (0 : Fin 1) q c)) (κ t)) := by
  rw [pay2_eq]
  show Ideal.ofBits .f32 0x00000000#32 - matmul dot_S900x92_S92x200_S900x200_1_0_0_1_n_n none _ _ _ (ix2 q t) = _
  rw [product_apply, Ideal.ofBits_zero_f32, zero_sub]
  refine congrArg (fun y : EReal => -y) ?_
  rw [Finset.sum_eq_single (κ t)]
  · show smx _ (ix2 q (κ t)) * hot v11 (ix2 (κ t) t) = _
    rw [smx_apply, hot, onehot_apply v11 κ hκ, if_pos rfl, mul_one]
    exact congrArg (fun z => softmax z (κ t)) (funext fun c => shapeCast_1ab_ab_apply v0 _ q c)
  · intro c _ hc
    show smx _ (ix2 q c) * hot v11 (ix2 c t) = 0
    rw [hot, onehot_apply v11 κ hκ, if_neg hc, mul_zero]
  · intro h; exact absurd (Finset.mem_univ _) h

end Cert.MatchCost.KerClass

end
-- ==== Proof.KerBoxes.lean ====
/-
  The kernel's two box costs at an entry. The body slices each box array into its four coordinate columns, turns the
  targets' columns into rows, and broadcasts a query column against a target row, so every (q, t) entry is the
  scalar formula of the query's box and the target's box.
-/
import proofs.«403522_j82987358093468_2_alg».proof.Proof.Gen.KernelIdeal.Skeleton
import proofs.«403522_j82987358093468_2_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.MatchCost.KerBoxes

open Idealize.ShloMosaic Idealize.ShloMosaic.ValueIdx Cert.KernelIdeal Cert.KernelIdeal.Gen Cert.MatchCost

/-! ## Two layout operations read at an index

A column `[a, 1]` cast to the vector `[a]`, and a column broadcast along a new second axis: each entry of the result
reads the column at the same row. -/

section Layout
variable {α : Type}

/-- An `[a, 1]` column cast to `[a]` reads, at `i`, the column at `(i, 0)`: both have row-major position `i`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column at `(p, 0)`. On the row axis the two
extents agree, so the coordinate is kept (and is `0` anyway when that extent is one); the unit axis reads `0`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The absolute value of a vector at an index is `max x (−x)` of the entry. -/
theorem absf_apply {s : Shape} {φ : FTy} (a : FVec Ideal s φ) (i : s.Idx) : absf a i = eabs (a i) := rfl

/-! ## The coordinate columns and rows

The loaded blocks `[1, 900, 4]` and `[1, 200, 4]` lose their unit axis; coordinate `a` of every query is the column
slice at offset `a`, and coordinate `a` of every target is that column laid out as a row. -/

/-- The query block without its unit axis: entry `(q, a)` is the block's `(0, q, a)`. -/
theorem pay3_apply (v23 : Vec Ideal S1x900x4 .f32) (q : Fin 900) (a : Fin 4) :
    k0_pay3 (F := Ideal) v23 (ix2 q a) = v23 (ix3 (0 : Fin 1) q a) := by
  unfold k0_pay3
  exact shapeCast_1ab_ab_apply v23 _ q a

/-- The target block without its unit axis: entry `(t, a)` is the block's `(0, t, a)`. -/
theorem pay4_apply (v25 : Vec Ideal S1x200x4 .f32) (t : Fin 200) (a : Fin 4) :
    k0_pay4 (F := Ideal) v25 (ix2 t a) = v25 (ix3 (0 : Fin 1) t a) := by
  unfold k0_pay4
  exact shapeCast_1ab_ab_apply v25 _ t a

/-- The queries' centre x: column 0. -/
theorem pay5_apply (v23 : Vec Ideal S1x900x4 .f32) (q : Fin 900) :
    k0_pay5 (F := Ideal) v23 (ix2 q (0 : Fin 1)) = v23 (ix3 (0 : Fin 1) q (0 : Fin 4)) := by
  unfold k0_pay5
  exact (slice2_axis1_apply 0 (k0_pay3 v23) _ q (0 : Fin 1) (0 : Fin 4) rfl).trans (pay3_apply v23 q 0)

/-- The queries' centre y: column 1. -/
theorem pay6_apply (v23 : Vec Ideal S1x900x4 .f32) (q : Fin 900) :
    k0_pay6 (F := Ideal) v23 (ix2 q (0 : Fin 1)) = v23 (ix3 (0 : Fin 1) q (1 : Fin 4)) := by
  unfold k0_pay6
  exact (slice2_axis1_apply 1 (k0_pay3 v23) _ q (0 : Fin 1) (1 : Fin 4) rfl).trans (pay3_apply v23 q 1)

/-- The queries' width: column 2. -/
theorem pay7_apply (v23 : Vec Ideal S1x900x4 .f32) (q : Fin 900) :
    k0_pay7 (F := Ideal) v23 (ix2 q (0 : Fin 1)) = v23 (ix3 (0 : Fin 1) q (2 : Fin 4)) := by
  unfold k0_pay7
  exact (slice2_axis1_apply 2 (k0_pay3 v23) _ q (0 : Fin 1) (2 : Fin 4) rfl).trans (pay3_apply v23 q 2)

/-- The queries' height: column 3. -/
theorem pay8_apply (v23 : Vec Ideal S1x900x4 .f32) (q : Fin 900) :
    k0_pay8 (F := Ideal) v23 (ix2 q (0 : Fin 1)) = v23 (ix3 (0 : Fin 1) q (3 : Fin 4)) := by
  unfold k0_pay8
  exact (slice2_axis1_apply 3 (k0_pay3 v23) _ q (0 : Fin 1) (3 : Fin 4) rfl).trans (pay3_apply v23 q 3)

/-- The targets' centre x as a row: the row at `t` is the vector at `t`, which is the column at `(t, 0)`, column 0 of
the block. -/
theorem pay9_apply (v25 : Vec Ideal S1x200x4 .f32) (t : Fin 200) :
    k0_pay9 (F := Ideal) v25 (ix2 (0 : Fin 1) t) = v25 (ix3 (0 : Fin 1) t (0 : Fin 4)) := by
  unfold k0_pay9
  refine (shapeCast_a_1a_apply _ _ (0 : Fin 1) t).trans ?_
  refine (shapeCast_a1_a_apply _ _ t).trans ?_
  exact (slice2_axis1_apply 0 (k0_pay4 v25) _ t (0 : Fin 1) (0 : Fin 4) rfl).trans (pay4_apply v25 t 0)

/-- The targets' centre y as a row: column 1 of the block. -/
theorem pay10_apply (v25 : Vec Ideal S1x200x4 .f32) (t : Fin 200) :
    k0_pay10 (F := Ideal) v25 (ix2 (0 : Fin 1) t) = v25 (ix3 (0 : Fin 1) t (1 : Fin 4)) := by
  unfold k0_pay10
  refine (shapeCast_a_1a_apply _ _ (0 : Fin 1) t).trans ?_
  refine (shapeCast_a1_a_apply _ _ t).trans ?_
  exact (slice2_axis1_apply 1 (k0_pay4 v25) _ t (0 : Fin 1) (1 : Fin 4) rfl).trans (pay4_apply v25 t 1)

/-- The targets' width as a row: column 2 of the block. -/
theorem pay11_apply (v25 : Vec Ideal S1x200x4 .f32) (t : Fin 200) :
    k0_pay11 (F := Ideal) v25 (ix2 (0 : Fin 1) t) = v25 (ix3 (0 : Fin 1) t (2 : Fin 4)) := by
  unfold k0_pay11
  refine (shapeCast_a_1a_apply _ _ (0 : Fin 1) t).trans ?_
  refine (shapeCast_a1_a_apply _ _ t).trans ?_
  exact (slice2_axis1_apply 2 (k0_pay4 v25) _ t (0 : Fin 1) (2 : Fin 4) rfl).trans (pay4_apply v25 t 2)

/-- The targets' height as a row: column 3 of the block. -/
theorem pay12_apply (v25 : Vec Ideal S1x200x4 .f32) (t : Fin 200) :
    k0_pay12 (F := Ideal) v25 (ix2 (0 : Fin 1) t) = v25 (ix3 (0 : Fin 1) t (3 : Fin 4)) := by
  unfold k0_pay12
  refine (shapeCast_a_1a_apply _ _ (0 : Fin 1) t).trans ?_
  refine (shapeCast_a1_a_apply _ _ t).trans ?_
  exact (slice2_axis1_apply 3 (k0_pay4 v25) _ t (0 : Fin 1) (3 : Fin 4) rfl).trans (pay4_apply v25 t 3)

/-! ## The L1 cost -/

/-- Over any four columns and four rows, the L1 payload at `(q, t)` is the sum, from the left, of the absolute
differences of column entry `q` and row entry `t`: every broadcast reads its column at `q` or its row at `t`. -/
theorem l1_core (c0 c1 c2 c3 : FVec Ideal S900x1 .f32) (r0 r1 r2 r3 : FVec Ideal S1x200 .f32) (q : Fin 900) (t : Fin 200) :
    k0_pay13 (F := Ideal) c0 c1 c2 c3 r0 r1 r2 r3 (ix2 q t)
      = eabs (c0 (ix2 q (0 : Fin 1)) - r0 (ix2 (0 : Fin 1) t)) + eabs (c1 (ix2 q (0 : Fin 1)) - r1 (ix2 (0 : Fin 1) t))
        + eabs (c2 (ix2 q (0 : Fin 1)) - r2 (ix2 (0 : Fin 1) t)) + eabs (c3 (ix2 q (0 : Fin 1)) - r3 (ix2 (0 : Fin 1) t)) := by
  unfold k0_pay13
  simp only [addf_apply, absf_apply, subf_apply, broadcastTo_a1_ab_apply, broadcastTo_1b_ab_apply]

/-- The L1 payload at (q, t): the L1 distance of the query's box and the target's box. -/
theorem l1_eq (v23 : Vec Ideal S1x900x4 .f32) (v25 : Vec Ideal S1x200x4 .f32) (q : Fin 900) (t : Fin 200) :
    k0_pay13 (F := Ideal) (k0_pay5 v23) (k0_pay6 v23) (k0_pay7 v23) (k0_pay8 v23) (k0_pay9 v25) (k0_pay10 v25) (k0_pay11 v25) (k0_pay12 v25) (ix2 q t)
      = l1 (fun a => v23 (ix3 (0 : Fin 1) q a)) (fun a => v25 (ix3 (0 : Fin 1) t a)) := by
  rw [l1_core, pay5_apply, pay6_apply, pay7_apply, pay8_apply, pay9_apply, pay10_apply, pay11_apply, pay12_apply]
  rfl

/-! ## Corners and areas

Each corner is its centre minus or plus half the extent, entry by entry; an area is the product of the two spans
between a box's own corners. -/

/-- A low corner of the queries, `c − ½·w`, at a row. -/
theorem pay14_apply (c w : FVec Ideal S900x1 .f32) (q : Fin 900) :
    k0_pay14 (F := Ideal) c w (ix2 q (0 : Fin 1)) = lo (c (ix2 q (0 : Fin 1))) (w (ix2 q (0 : Fin 1))) := rfl

theorem pay15_apply (c w : FVec Ideal S900x1 .f32) (q : Fin 900) :
    k0_pay15 (F := Ideal) c w (ix2 q (0 : Fin 1)) = lo (c (ix2 q (0 : Fin 1))) (w (ix2 q (0 : Fin 1))) := rfl

/-- A high corner of the queries, `c + ½·w`, at a row. -/
theorem pay16_apply (c w : FVec Ideal S900x1 .f32) (q : Fin 900) :
    k0_pay16 (F := Ideal) c w (ix2 q (0 : Fin 1)) = hi (c (ix2 q (0 : Fin 1))) (w (ix2 q (0 : Fin 1))) := rfl

theorem pay17_apply (c w : FVec Ideal S900x1 .f32) (q : Fin 900) :
    k0_pay17 (F := Ideal) c w (ix2 q (0 : Fin 1)) = hi (c (ix2 q (0 : Fin 1))) (w (ix2 q (0 : Fin 1))) := rfl

/-- A low corner of the targets at a column of the row layout. -/
theorem pay18_apply (c w : FVec Ideal S1x200 .f32) (t : Fin 200) :
    k0_pay18 (F := Ideal) c w (ix2 (0 : Fin 1) t) = lo (c (ix2 (0 : Fin 1) t)) (w (ix2 (0 : Fin 1) t)) := rfl

theorem pay19_apply (c w : FVec Ideal S1x200 .f32) (t : Fin 200) :
    k0_pay19 (F := Ideal) c w (ix2 (0 : Fin 1) t) = lo (c (ix2 (0 : Fin 1) t)) (w (ix2 (0 : Fin 1) t)) := rfl

/-- A high corner of the targets. -/
theorem pay20_apply (c w : FVec Ideal S1x200 .f32) (t : Fin 200) :
    k0_pay20 (F := Ideal) c w (ix2 (0 : Fin 1) t) = hi (c (ix2 (0 : Fin 1) t)) (w (ix2 (0 : Fin 1) t)) := rfl

theorem pay21_apply (c w : FVec Ideal S1x200 .f32) (t : Fin 200) :
    k0_pay21 (F := Ideal) c w (ix2 (0 : Fin 1) t) = hi (c (ix2 (0 : Fin 1) t)) (w (ix2 (0 : Fin 1) t)) := rfl

/-- A query's area: the x span times the y span of its own corners. -/
theorem pay22_apply (cx cy w h : FVec Ideal S900x1 .f32) (q : Fin 900) :
    k0_pay22 (F := Ideal) cx cy w h (ix2 q (0 : Fin 1))
      = (hi (cx (ix2 q (0 : Fin 1))) (w (ix2 q (0 : Fin 1))) - lo (cx (ix2 q (0 : Fin 1))) (w (ix2 q (0 : Fin 1))))
        * (hi (cy (ix2 q (0 : Fin 1))) (h (ix2 q (0 : Fin 1))) - lo (cy (ix2 q (0 : Fin 1))) (h (ix2 q (0 : Fin 1)))) := rfl

/-- A target's area. -/
theorem pay23_apply (cx cy w h : FVec Ideal S1x200 .f32) (t : Fin 200) :
    k0_pay23 (F := Ideal) cx cy w h (ix2 (0 : Fin 1) t)
      = (hi (cx (ix2 (0 : Fin 1) t)) (w (ix2 (0 : Fin 1) t)) - lo (cx (ix2 (0 : Fin 1) t)) (w (ix2 (0 : Fin 1) t)))
        * (hi (cy (ix2 (0 : Fin 1) t)) (h (ix2 (0 : Fin 1) t)) - lo (cy (ix2 (0 : Fin 1) t)) (h (ix2 (0 : Fin 1) t))) := rfl

/-- The larger of the two low x corners at `(q, t)`: the left edge of the overlap. -/
theorem pay24_apply (c w : FVec Ideal S900x1 .f32) (C W : FVec Ideal S1x200 .f32) (q : Fin 900) (t : Fin 200) :
    k0_pay24 (F := Ideal) c w C W (ix2 q t)
      = max (lo (c (ix2 q (0 : Fin 1))) (w (ix2 q (0 : Fin 1)))) (lo (C (ix2 (0 : Fin 1) t)) (W (ix2 (0 : Fin 1) t))) := by
  unfold k0_pay24
  simp only [maximumf_apply, broadcastTo_a1_ab_apply, broadcastTo_1b_ab_apply, pay14_apply, pay18_apply]

/-! ## The generalised IoU cost -/

/-- Over any corner columns `lx ly hx hy`, corner rows `LX LY HX HY`, area column `ap`, area row `ag` and overlap edge
`m`, the last payload at `(q, t)` is twice `0 − (I / U − (H − U) / H)`, with `I` the clipped overlap, `U` the two areas
less `I`, and `H` the clipped enclosing box, all from entries `q` of the columns and `t` of the rows. -/
theorem giou_core (lx ly hx hy : FVec Ideal S900x1 .f32) (LX LY HX HY : FVec Ideal S1x200 .f32)
    (ap : FVec Ideal S900x1 .f32) (ag : FVec Ideal S1x200 .f32) (m : FVec Ideal S900x200 .f32) (q : Fin 900) (t : Fin 200) :
    k0_pay26 (F := Ideal) lx ly hx hy LX LY HX HY ap ag m (ix2 q t)
      = cTwo * (cZero -
          (Ideal.div
              (max (min (hx (ix2 q (0 : Fin 1))) (HX (ix2 (0 : Fin 1) t)) - m (ix2 q t)) cZero
                * max (min (hy (ix2 q (0 : Fin 1))) (HY (ix2 (0 : Fin 1) t)) - max (ly (ix2 q (0 : Fin 1))) (LY (ix2 (0 : Fin 1) t))) cZero)
              (ap (ix2 q (0 : Fin 1)) + ag (ix2 (0 : Fin 1) t)
                - max (min (hx (ix2 q (0 : Fin 1))) (HX (ix2 (0 : Fin 1) t)) - m (ix2 q t)) cZero
                  * max (min (hy (ix2 q (0 : Fin 1))) (HY (ix2 (0 : Fin 1) t)) - max (ly (ix2 q (0 : Fin 1))) (LY (ix2 (0 : Fin 1) t))) cZero)
            - Ideal.div
              (max (max (hx (ix2 q (0 : Fin 1))) (HX (ix2 (0 : Fin 1) t)) - min (lx (ix2 q (0 : Fin 1))) (LX (ix2 (0 : Fin 1) t))) cZero
                  * max (max (hy (ix2 q (0 : Fin 1))) (HY (ix2 (0 : Fin 1) t)) - min (ly (ix2 q (0 : Fin 1))) (LY (ix2 (0 : Fin 1) t))) cZero
                - (ap (ix2 q (0 : Fin 1)) + ag (ix2 (0 : Fin 1) t)
                  - max (min (hx (ix2 q (0 : Fin 1))) (HX (ix2 (0 : Fin 1) t)) - m (ix2 q t)) cZero
                    * max (min (hy (ix2 q (0 : Fin 1))) (HY (ix2 (0 : Fin 1) t)) - max (ly (ix2 q (0 : Fin 1))) (LY (ix2 (0 : Fin 1) t))) cZero))
              (max (max (hx (ix2 q (0 : Fin 1))) (HX (ix2 (0 : Fin 1) t)) - min (lx (ix2 q (0 : Fin 1))) (LX (ix2 (0 : Fin 1) t))) cZero
                * max (max (hy (ix2 q (0 : Fin 1))) (HY (ix2 (0 : Fin 1) t)) - min (ly (ix2 q (0 : Fin 1))) (LY (ix2 (0 : Fin 1) t))) cZero))) := by
  unfold k0_pay26
  simp only [mulf_apply, addf_apply, subf_apply, divf_apply, maximumf_apply, minimumf_apply, broadcast_apply,
    broadcastTo_a1_ab_apply, broadcastTo_1b_ab_apply]
  rfl

/-- On the extended reals `0 − x = −x`, the zero being the one the zero pattern denotes. -/
theorem czero_sub (x : EReal) : cZero - x = -x := by
  show Ideal.ofBits .f32 0x00000000#32 - x = -x
  rw [Ideal.ofBits_zero_f32, zero_sub]

/-- The GIoU payload at (q, t): twice the negated generalised IoU of the query's box and the target's box. -/
theorem giou_eq (v23 : Vec Ideal S1x900x4 .f32) (v25 : Vec Ideal S1x200x4 .f32) (q : Fin 900) (t : Fin 200) :
    k0_pay26 (F := Ideal) (k0_pay14 (k0_pay5 v23) (k0_pay7 v23)) (k0_pay15 (k0_pay6 v23) (k0_pay8 v23)) (k0_pay16 (k0_pay5 v23) (k0_pay7 v23)) (k0_pay17 (k0_pay6 v23) (k0_pay8 v23)) (k0_pay18 (k0_pay9 v25) (k0_pay11 v25)) (k0_pay19 (k0_pay10 v25) (k0_pay12 v25)) (k0_pay20 (k0_pay9 v25) (k0_pay11 v25)) (k0_pay21 (k0_pay10 v25) (k0_pay12 v25)) (k0_pay22 (k0_pay5 v23) (k0_pay6 v23) (k0_pay7 v23) (k0_pay8 v23)) (k0_pay23 (k0_pay9 v25) (k0_pay10 v25) (k0_pay11 v25) (k0_pay12 v25)) (k0_pay24 (k0_pay5 v23) (k0_pay7 v23) (k0_pay9 v25) (k0_pay11 v25)) (ix2 q t)
      = cTwo * (-(giou (fun a => v23 (ix3 (0 : Fin 1) q a)) (fun a => v25 (ix3 (0 : Fin 1) t a)))) := by
  rw [giou_core, czero_sub]
  simp only [pay14_apply, pay15_apply, pay16_apply, pay17_apply, pay18_apply, pay19_apply, pay20_apply, pay21_apply,
    pay22_apply, pay23_apply, pay24_apply, pay5_apply, pay6_apply, pay7_apply, pay8_apply, pay9_apply, pay10_apply,
    pay11_apply, pay12_apply]
  rfl

end Cert.MatchCost.KerBoxes

end
-- ==== Proof.KernelOut.lean ====
/-
  What the kernel body leaves in the output window's buffer, at an entry: the matching cost of the query's
  score row and box with the target's box and class. The body's one store covers the whole buffer, so the buffer
  is the stored value; that value is 5 · (the L1 payload) + 1 · (the class payload), plus the GIoU payload, cast
  from [900, 200] to [1, 900, 200]; the three payloads at (q, t) are the specification's three costs.
-/
import proofs.«403522_j82987358093468_2_alg».proof.Proof.Gen.KernelIdeal.Frame
import proofs.«403522_j82987358093468_2_alg».proof.Proof.KerClass
import proofs.«403522_j82987358093468_2_alg».proof.Proof.KerBoxes
import Idealize.ShloMosaic.Lib.ValueLayout

noncomputable section

namespace Cert.MatchCost.KernelOut

open Idealize.ShloMosaic Idealize.ShloMosaic.ValueIdx Cert.KernelIdeal Cert.KernelIdeal.Gen Cert.MatchCost

theorem hz : (![0, 0, 0] : Fin 3 → Nat) = fun _ => 0 := funext fun a => by fin_cases a <;> rfl

/-- The output buffer after the body, at (0, q, t), from the four input blocks: the cost of row q of the scores,
    row q of the predicted boxes, row t of the target boxes and the class of target t. -/
theorem out_eq (x0 : Vec Ideal S1x900x92 .f32) (x1 : Vec Ideal S1x900x4 .f32) (x2 : Vec Ideal S1x200x4 .f32)
    (x3 : Vec Ideal S1x1x200 .i32) (κ : Fin 200 → Fin 92)
    (hκ : ∀ t : Fin 200, x3 (ix3 (0 : Fin 1) (0 : Fin 1) t) = BitVec.ofNat 32 (κ t).val) (q : Fin 900) (t : Fin 200) :
    out0_4 (F := Ideal) x0 x1 x2 x3 (ix3 (0 : Fin 1) q t)
      = cost (fun c => x0 (ix3 (0 : Fin 1) q c)) (fun a => x1 (ix3 (0 : Fin 1) q a)) (fun a => x2 (ix3 (0 : Fin 1) t a)) (κ t) := by
  have e1 := KerBoxes.l1_eq x1 x2 q t
  have e2 := KerClass.class_eq x0 x3 κ hκ q t
  have e3 := KerBoxes.giou_eq x1 x2 q t
  unfold out0_4
  rw [View.canon_unit_zero hz]
  simp only [View.ld_unit_zero (S := S1x900x92) hz, View.ld_unit_zero (S := S1x1x200) hz,
    View.ld_unit_zero (S := S1x900x4) hz, View.ld_unit_zero (S := S1x200x4) hz]
  unfold k0_pay1
  refine (shapeCast_ab_1ab_apply _ _ (0 : Fin 1) q t).trans ?_
  unfold k0_pay25
  simp only [ValueIdx.addf_apply, ValueIdx.mulf_apply, ValueIdx.broadcast_apply]
  rw [e1, e2, e3]
  rfl

end Cert.MatchCost.KernelOut

end
-- ==== Proof.KernelArray.lean ====
/-
  From blocks to the array. The grid has one point per batch member; at point t every window's block is the t-th
  slab of its array (block index (t, 0, 0), the block the whole of the two trailing axes), so the five blocks at
  point t are the rows of batch member t, and what the point writes back is slab t of the cost matrix. The 64
  slabs tile the result array, so after the run the array is the cost matrix.

  The labels reach the kernel through one host operation, a reshape of [64, 200] to [64, 1, 200]; read at
  (b, 0, t) it is the label at (b, t).
-/
import proofs.«403522_j82987358093468_2_alg».proof.Proof.KernelBlocks
import proofs.«403522_j82987358093468_2_alg».proof.Proof.KernelOut
import Idealize.ShloMosaic.Lib.StableHlo.Run

set_option maxRecDepth 16384

noncomputable section

namespace Cert.MatchCost.KernelArray

open Idealize.ShloMosaic Idealize.ShloMosaic.TcCoe Idealize.SL.Sem Idealize.ShloMosaic.ValueIdx
open Idealize.ShloMosaic.StableHlo
open Cert.KernelIdeal Cert.KernelIdeal.Gen Cert.MatchCost
open Idealize.ShloMosaic.Pipeline (Dat)

variable (m : (ℓ : Loc nD τ sig) → Buf (Elt Ideal) ℓ) (ρ : Dev nD → PrngReg)

/-- The grid has 64 points. -/
theorem N_eq : cfg0.N = 64 := N_0

/-- The batch member a grid point works on. -/
def bOf (t : Fin cfg0.N) : Fin 64 := ⟨t.val, by have h := t.isLt; have e := N_eq; omega⟩

/-- The grid point that works on a batch member. -/
def tOf (b : Fin 64) : Fin cfg0.N := ⟨b.val, by have h := b.isLt; have e := N_eq; omega⟩

/-- The printed index maps, decided over the grid: every window's block index at point t is (t, 0, 0). -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0) :=
  (by decide +kernel : ∀ t : Fin grid0.N, _)

/-! ## The blocks, read at coordinates -/

/-- The score block at point t is batch member t's rows of scores. -/
theorem blk0_apply (c : Dev nD) (t : Fin cfg0.N) (q : Fin 900) (k : Fin 92) :
    iblk m c 0 t (ix3 (0 : Fin 1) q k) = m ((c : Thread nD τ).loc main_arg0) (ix3 (bOf t) q k) := by
  rw [← V_main_arg0 m c]
  show V m c main_arg0 (((cfg0.win 0).blk t).view.emb (ix3 (0 : Fin 1) q k)) = _
  congr 1
  obtain ⟨⟨e0, e1, e2⟩, -⟩ := idx_facts t
  funext a; apply Fin.ext
  match a with
  | ⟨0, _⟩ => show win0_0.index t (0 : Fin 3) * 1 + 1 * (0 : Nat) = t.val; omega
  | ⟨1, _⟩ => show win0_0.index t (1 : Fin 3) * 900 + 1 * q.val = q.val; omega
  | ⟨2, _⟩ => show win0_0.index t (2 : Fin 3) * 92 + 1 * k.val = k.val; omega

/-- The predicted-box block at point t is batch member t's predicted boxes. -/
theorem blk1_apply (c : Dev nD) (t : Fin cfg0.N) (q : Fin 900) (a' : Fin 4) :
    iblk m c 1 t (ix3 (0 : Fin 1) q a') = m ((c : Thread nD τ).loc main_arg1) (ix3 (bOf t) q a') := by
  rw [← V_main_arg1 m c]
  show V m c main_arg1 (((cfg0.win 1).blk t).view.emb (ix3 (0 : Fin 1) q a')) = _
  congr 1
  obtain ⟨-, ⟨e0, e1, e2⟩, -⟩ := idx_facts t
  funext a; apply Fin.ext
  match a with
  | ⟨0, _⟩ => show win0_1.index t (0 : Fin 3) * 1 + 1 * (0 : Nat) = t.val; omega
  | ⟨1, _⟩ => show win0_1.index t (1 : Fin 3) * 900 + 1 * q.val = q.val; omega
  | ⟨2, _⟩ => show win0_1.index t (2 : Fin 3) * 4 + 1 * a'.val = a'.val; omega

/-- The target-box block at point t is batch member t's target boxes. -/
theorem blk2_apply (c : Dev nD) (t : Fin cfg0.N) (s : Fin 200) (a' : Fin 4) :
    iblk m c 2 t (ix3 (0 : Fin 1) s a') = m ((c : Thread nD τ).loc main_arg2) (ix3 (bOf t) s a') := by
  rw [← V_main_arg2 m c]
  show V m c main_arg2 (((cfg0.win 2).blk t).view.emb (ix3 (0 : Fin 1) s a')) = _
  congr 1
  obtain ⟨-, -, ⟨e0, e1, e2⟩, -⟩ := idx_facts t
  funext a; apply Fin.ext
  match a with
  | ⟨0, _⟩ => show win0_2.index t (0 : Fin 3) * 1 + 1 * (0 : Nat) = t.val; omega
  | ⟨1, _⟩ => show win0_2.index t (1 : Fin 3) * 200 + 1 * s.val = s.val; omega
  | ⟨2, _⟩ => show win0_2.index t (2 : Fin 3) * 4 + 1 * a'.val = a'.val; omega

/-- The one host operation before the region: the label array as the region finds it is the argument reshaped. -/
theorem labels_reshaped (c : Dev nD) :
    (V m c main_v0 : S64x1x200.Idx → BitVec 32)
      = shapeCast S64x1x200 (m ((c : Thread nD τ).loc main_arg3) : S64x200.Idx → BitVec 32) shapeCasts_S64x200_S64x1x200 := by
  dsimp only [Gen.V, Gen.hostOps0]
  after_results
  rfl

/-- The label block at point t, read at target s, is the label of target s of batch member t. -/
theorem blk3_apply (c : Dev nD) (t : Fin cfg0.N) (s : Fin 200) :
    iblk m c 3 t (ix3 (0 : Fin 1) (0 : Fin 1) s) = m ((c : Thread nD τ).loc main_arg3) (ix2 (bOf t) s) := by
  show V m c main_v0 (((cfg0.win 3).blk t).view.emb (ix3 (0 : Fin 1) (0 : Fin 1) s)) = _
  have e : ((cfg0.win 3).blk t).view.emb (ix3 (0 : Fin 1) (0 : Fin 1) s) = ix3 (bOf t) (0 : Fin 1) s := by
    obtain ⟨-, -, -, ⟨e0, e1, e2⟩, -⟩ := idx_facts t
    funext a; apply Fin.ext
    match a with
    | ⟨0, _⟩ => show win0_3.index t (0 : Fin 3) * 1 + 1 * (0 : Nat) = t.val; omega
    | ⟨1, _⟩ => show win0_3.index t (1 : Fin 3) * 1 + 1 * (0 : Nat) = 0; omega
    | ⟨2, _⟩ => show win0_3.index t (2 : Fin 3) * 200 + 1 * s.val = s.val; omega
  rw [e, labels_reshaped m c]
  refine shapeCast_apply _ _ _ (ix2 (bOf t) s) ?_
  rw [Shape.rowMajor_val_three, Shape.rowMajor_val_two]
  show (bOf t).val * 200 + s.val = ((bOf t).val * 1 + 0) * 200 + s.val
  omega

/-- An entry of the output block at point t is the entry of batch member t's slab. -/
theorem emb4 (t : Fin cfg0.N) (q : Fin 900) (s : Fin 200) :
    ((cfg0.win 4).blk t).view.emb (ix3 (0 : Fin 1) q s) = ix3 (bOf t) q s := by
  obtain ⟨-, -, -, -, ⟨e0, e1, e2⟩⟩ := idx_facts t
  funext a; apply Fin.ext
  match a with
  | ⟨0, _⟩ => show win0_4.index t (0 : Fin 3) * 1 + 1 * (0 : Nat) = t.val; omega
  | ⟨1, _⟩ => show win0_4.index t (1 : Fin 3) * 900 + 1 * q.val = q.val; omega
  | ⟨2, _⟩ => show win0_4.index t (2 : Fin 3) * 200 + 1 * s.val = s.val; omega

/-! ## What a point writes back, and the array after the run -/

/-- The cost matrix of core c's argument arrays, the targets' classes given as numbers below 92. -/
abbrev Gm (c : Dev nD) (ℓ : Fin 64 → Fin 200 → Fin 92) : S64x900x200.Idx → Elt Ideal .f32 :=
  G (m ((c : Thread nD τ).loc main_arg0)) (m ((c : Thread nD τ).loc main_arg1)) (m ((c : Thread nD τ).loc main_arg2)) ℓ

/-- WHAT POINT t WRITES BACK is slab t of the cost matrix, when every label word is its class number. -/
theorem flushed_eq (c : Dev nD) (ℓ : Fin 64 → Fin 200 → Fin 92)
    (hℓ : ∀ b s, m ((c : Thread nD τ).loc main_arg3) (ix2 b s) = BitVec.ofNat 32 (ℓ b s).val) (t : Fin cfg0.N) :
    (dats m 0 c).flushed 4 t = ((cfg0.win 4).blk t).view.read (Elt Ideal) (Gm m c ℓ) := by
  rw [Cert.KernelIdeal.ValueP.flushed4]
  funext j
  obtain ⟨u, q, s, rfl⟩ : ∃ (u : Fin 1) (q : Fin 900) (s : Fin 200), j = ix3 u q s := ⟨j 0, j 1, j 2, eq_ix3 j⟩
  obtain rfl : u = 0 := Subsingleton.elim _ _
  show out0_4 (iblk m c 0 t) (iblk m c 1 t) (iblk m c 2 t) (iblk m c 3 t) (ix3 (0 : Fin 1) q s)
    = Gm m c ℓ (((cfg0.win 4).blk t).view.emb (ix3 (0 : Fin 1) q s))
  rw [emb4, KernelOut.out_eq _ _ _ _ (fun s' => ℓ (bOf t) s') (fun s' => (blk3_apply m c t s').trans (hℓ (bOf t) s')) q s]
  show _ = costAt _ _ _ ℓ (bOf t) q s
  unfold costAt
  simp only [blk0_apply, blk1_apply, blk2_apply]

/-- Every entry of the result array lies in the block of the point that works on its batch member. -/
theorem cover (i : S64x900x200.Idx) :
    ∃ t : Fin cfg0.N, (cfg0.win 4).flush t = true ∧ i ∈ ((cfg0.win 4).blk t).view.set := by
  refine ⟨tOf (i 0), flush0_4 _, ?_⟩
  show i ∈ ((View.whole main_v1).slice (win0_4.rect (tOf (i 0)))).set
  rw [View.set_slice_whole, Rect.mem_set_unit]
  obtain ⟨-, -, -, -, ⟨e0, e1, e2⟩⟩ := idx_facts (tOf (i 0))
  intro a
  have h0 : (i 0).val < 64 := (i 0).isLt
  have h1 : (i 1).val < 900 := (i 1).isLt
  have h2 : (i 2).val < 200 := (i 2).isLt
  match a with
  | ⟨0, _⟩ => show win0_4.index (tOf (i 0)) (0 : Fin 3) * 1 ≤ (i 0).val ∧ (i 0).val < win0_4.index (tOf (i 0)) (0 : Fin 3) * 1 + 1; rw [e0]; show (i 0).val * 1 ≤ (i 0).val ∧ (i 0).val < (i 0).val * 1 + 1; omega
  | ⟨1, _⟩ => show win0_4.index (tOf (i 0)) (1 : Fin 3) * 900 ≤ (i 1).val ∧ (i 1).val < win0_4.index (tOf (i 0)) (1 : Fin 3) * 900 + 900; omega
  | ⟨2, _⟩ => show win0_4.index (tOf (i 0)) (2 : Fin 3) * 200 ≤ (i 2).val ∧ (i 2).val < win0_4.index (tOf (i 0)) (2 : Fin 3) * 200 + 200; omega

/-- THE ARRAY after the run is the cost matrix. -/
theorem final (c : Dev nD) (ℓ : Fin 64 → Fin 200 → Fin 92)
    (hℓ : ∀ b s, m ((c : Thread nD τ).loc main_arg3) (ix2 b s) = BitVec.ofNat 32 (ℓ b s).val) :
    (dats m 0 c).arrAt 4 cfg0.N = Gm m c ℓ :=
  (dats m 0 c).arrAt_eq_of_cover 4 (Gm m c ℓ) (fun t _ => flushed_eq m c ℓ hℓ t) cover

/-- The kernel's run with the result array named: the cost matrix on every core, the arguments unchanged. -/
theorem run (ℓ : Dev nD → Fin 64 → Fin 200 → Fin 92)
    (hℓ : ∀ (c : Dev nD) (b : Fin 64) (s : Fin 200), m ((c : Thread nD τ).loc main_arg3) (ix2 b s) = BitVec.ofNat 32 (ℓ c b s).val) :
    θ_run defs (onTc (τ := τ) (main (F := Ideal))) ⟨m, fun _ => 0, ρ⟩ fun r => ∀ c : Dev nD,
      r.2.mem ((c : Thread nD τ).loc main_v1) = Gm m c (ℓ c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c (ℓ c) (hℓ c)), (h c).2⟩)
    (Cert.KernelIdeal.ValueP.run_blocks m ρ)

end Cert.MatchCost.KernelArray

end
-- ==== Proof.LibTypedRef.lean ====
/-
  General lemma: typed references' transports cancel.
  A host function that jax outlined (log_softmax, take_along_axis, …) prints over typed references, whose operations move a
  value to the buffer's own type and back (a cast along the reference's type equation). Reading a line of such operations
  with the library's result lemmas leaves every stage wrapped in `ofBuf (toBuf v)`; this lemma removes the wrapping,
  for any typed reference, with no look at the signature's tables — apply it by `simp only` before comparing the composed term
  with its stages.
-/
import Idealize.ShloMosaic.Lib.StableHlo

noncomputable section

open Idealize.ShloMosaic Idealize.ShloMosaic.StableHlo

namespace Cert.Lib.TypedRef

/-- A value moved to a typed reference's buffer type and back is the value. -/
theorem ofBuf_toBuf {sig : RefSig} {Val : EltTy → Type} {T : BufTy} (x : TRef sig T) (v : T.Contents Val) :
    x.ofBuf (x.toBuf v) = v := by
  unfold TRef.ofBuf TRef.toBuf
  simp only [cast_cast, cast_eq]

end Cert.Lib.TypedRef

end
-- ==== Proof.RefRunValue.lean ====
/-
  The reference's run, read stretch by stretch. The reference's @main is a straight line of 191 host operations;
  what a buffer holds after the line is the fold of the operations' results over the launch contents. The line is
  cut into ten consecutive stretches: (1) the softmax of the scores and the labels broadcast against the queries,
  (2) the gather's index (a negative label wrapped by 92), (3) that index reshaped, (4) the mask of the indices
  inside [0, 91], (5) the gather, the fill value and the select between them, (6) the class cost's sign and the L1
  cost, (7) the predicted boxes' corners joined into one array, (8) the same for the target boxes, (9) the GIoU
  cost from those two arrays, (10) the weighted sum. Each stretch's result buffer is read as its stage function of
  the stretch's inputs, for ANY contents the stretch starts from; a buffer a stretch does not write keeps its
  contents; chaining the ten gives the result buffer after the whole line as the last stage function of the four
  arguments. Stretches 2 to 5 are the operations of a function the reference calls; they move every value to its
  buffer's own type and back, and the two moves cancel.
-/
import proofs.«403522_j82987358093468_2_alg».proof.Proof.RefRun
import proofs.«403522_j82987358093468_2_alg».proof.Proof.RefRead
import proofs.«403522_j82987358093468_2_alg».proof.Proof.LibTypedRef

set_option maxRecDepth 16384

noncomputable section

namespace Cert.ReferenceIdeal.RunValue

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The contents after two lines in a row are the second line's after the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ## A value moved to a literal typed reference's buffer type is the value -/

theorem tb_c5 (v : (⟨S64x900x200x1, .i32⟩ : BufTy).Contents (Elt F)) :
    ((TRef.of (T := ⟨S64x900x200x1, .i32⟩) main_call0_v5).toBuf v : (⟨S64x900x200x1, .i32⟩ : BufTy).Contents (Elt F)) = v := rfl
theorem tb_c12 (v : (⟨S64x900x200, .i1⟩ : BufTy).Contents (Elt F)) :
    ((TRef.of (T := ⟨S64x900x200, .i1⟩) main_call0_v12).toBuf v : (⟨S64x900x200, .i1⟩ : BufTy).Contents (Elt F)) = v := rfl
theorem tb_v10 (v : (⟨S64x900x92, .f32⟩ : BufTy).Contents (Elt F)) :
    ((TRef.of (T := ⟨S64x900x92, .f32⟩) main_v10).toBuf v : (⟨S64x900x92, .f32⟩ : BufTy).Contents (Elt F)) = v := rfl
theorem tb_v13 (v : (⟨S64x900x200, .f32⟩ : BufTy).Contents (Elt F)) :
    ((TRef.of (T := ⟨S64x900x200, .f32⟩) main_v13).toBuf v : (⟨S64x900x200, .f32⟩ : BufTy).Contents (Elt F)) = v := rfl

/-! ## Stretch 1: the softmax and the labels broadcast -/

set_option maxHeartbeats 4000000 in
theorem s1_v10 (W : Valuation τ sig (Elt F)) :
    after (ops1 (F := F)) W (Proc.devRef .tc main_v10) = val_main_v10 (F := F) (W (Proc.devRef .tc main_arg0)) := by
  after_results_simp <;> rfl
set_option maxHeartbeats 4000000 in
theorem s1_v12 (W : Valuation τ sig (Elt F)) :
    after (ops1 (F := F)) W (Proc.devRef .tc main_v12) = val_main_v12 (F := F) (W (Proc.devRef .tc main_arg3)) := by
  after_results_simp <;> rfl
theorem keep1_a1 (W : Valuation τ sig (Elt F)) : after (ops1 (F := F)) W (Proc.devRef .tc main_arg1) = W (Proc.devRef .tc main_arg1) := by
  after_results_simp <;> rfl
theorem keep1_a2 (W : Valuation τ sig (Elt F)) : after (ops1 (F := F)) W (Proc.devRef .tc main_arg2) = W (Proc.devRef .tc main_arg2) := by
  after_results_simp <;> rfl

/-! ## Stretch 2: the gather's index, a negative label wrapped by 92 -/

set_option maxHeartbeats 4000000 in
theorem s2_c4 (W : Valuation τ sig (Elt F)) (x3 : (⟨S64x200, .i32⟩ : BufTy).Contents (Elt F))
    (h_v12 : W (Proc.devRef .tc main_v12) = val_main_v12 (F := F) x3) :
    after (ops2 (F := F)) W (Proc.devRef .tc main_call0_v4) = val_main_call0_v4 (F := F) x3 := by
  after_results_simp
  try simp only [Cert.Lib.TypedRef.ofBuf_toBuf]
  rw [h_v12]
  rfl
theorem keep2_v10 (W : Valuation τ sig (Elt F)) : after (ops2 (F := F)) W (Proc.devRef .tc main_v10) = W (Proc.devRef .tc main_v10) := by
  after_results_simp <;> rfl
theorem keep2_a1 (W : Valuation τ sig (Elt F)) : after (ops2 (F := F)) W (Proc.devRef .tc main_arg1) = W (Proc.devRef .tc main_arg1) := by
  after_results_simp <;> rfl
theorem keep2_a2 (W : Valuation τ sig (Elt F)) : after (ops2 (F := F)) W (Proc.devRef .tc main_arg2) = W (Proc.devRef .tc main_arg2) := by
  after_results_simp <;> rfl

/-! ## Stretch 3: the index reshaped to a column of index vectors -/

set_option maxHeartbeats 4000000 in
theorem s3_c5 (W : Valuation τ sig (Elt F)) (x3 : (⟨S64x200, .i32⟩ : BufTy).Contents (Elt F))
    (h_c4 : W (Proc.devRef .tc main_call0_v4) = val_main_call0_v4 (F := F) x3) :
    after (ops3 (F := F)) W (Proc.devRef .tc main_call0_v5) = val_main_call0_v5 (F := F) x3 := by
  after_results_simp
  try simp only [Cert.Lib.TypedRef.ofBuf_toBuf]
  rw [h_c4]
  rfl
theorem keep3_v10 (W : Valuation τ sig (Elt F)) : after (ops3 (F := F)) W (Proc.devRef .tc main_v10) = W (Proc.devRef .tc main_v10) := by
  after_results_simp <;> rfl
theorem keep3_a1 (W : Valuation τ sig (Elt F)) : after (ops3 (F := F)) W (Proc.devRef .tc main_arg1) = W (Proc.devRef .tc main_arg1) := by
  after_results_simp <;> rfl
theorem keep3_a2 (W : Valuation τ sig (Elt F)) : after (ops3 (F := F)) W (Proc.devRef .tc main_arg2) = W (Proc.devRef .tc main_arg2) := by
  after_results_simp <;> rfl

/-! ## Stretch 4: the mask of the indices inside [0, 91] -/

set_option maxHeartbeats 4000000 in
theorem s4_c12 (W : Valuation τ sig (Elt F)) (x3 : (⟨S64x200, .i32⟩ : BufTy).Contents (Elt F))
    (h_c5 : W (Proc.devRef .tc main_call0_v5) = val_main_call0_v5 (F := F) x3) :
    after (ops4 (F := F)) W (Proc.devRef .tc main_call0_v12) = val_main_call0_v12 (F := F) x3 := by
  have t_c5 : W (Proc.devRef .tc main_call0_v5) = (TRef.of (T := ⟨S64x900x200x1, .i32⟩) main_call0_v5).toBuf (val_main_call0_v5 (F := F) x3) := h_c5.trans (tb_c5 _).symm
  refine Eq.trans ?_ (tb_c12 (val_main_call0_v12 (F := F) x3))
  after_results_simp
  try simp only [Cert.Lib.TypedRef.ofBuf_toBuf]
  rw [t_c5]
  simp only [Cert.Lib.TypedRef.ofBuf_toBuf]
  unfold val_main_call0_v12 val_main_call0_v11 val_main_call0_v10 val_main_call0_v9 val_main_call0_v8 val_main_call0_v7 val_main_call0_v6 val_main_call0_c_1 val_main_call0_c_2 val_main_call0_c_3
  rfl
theorem keep4_v10 (W : Valuation τ sig (Elt F)) : after (ops4 (F := F)) W (Proc.devRef .tc main_v10) = W (Proc.devRef .tc main_v10) := by
  after_results_simp <;> rfl
theorem keep4_c5 (W : Valuation τ sig (Elt F)) : after (ops4 (F := F)) W (Proc.devRef .tc main_call0_v5) = W (Proc.devRef .tc main_call0_v5) := by
  after_results_simp <;> rfl
theorem keep4_a1 (W : Valuation τ sig (Elt F)) : after (ops4 (F := F)) W (Proc.devRef .tc main_arg1) = W (Proc.devRef .tc main_arg1) := by
  after_results_simp <;> rfl
theorem keep4_a2 (W : Valuation τ sig (Elt F)) : after (ops4 (F := F)) W (Proc.devRef .tc main_arg2) = W (Proc.devRef .tc main_arg2) := by
  after_results_simp <;> rfl

/-! ## Stretch 5: the gather, the fill value and the select -/

set_option maxHeartbeats 4000000 in
theorem s5_v13 (W : Valuation τ sig (Elt F)) (x0 : (⟨S64x900x92, .f32⟩ : BufTy).Contents (Elt F)) (x3 : (⟨S64x200, .i32⟩ : BufTy).Contents (Elt F))
    (h_c12 : W (Proc.devRef .tc main_call0_v12) = val_main_call0_v12 (F := F) x3) (h_v10 : W (Proc.devRef .tc main_v10) = val_main_v10 (F := F) x0) (h_c5 : W (Proc.devRef .tc main_call0_v5) = val_main_call0_v5 (F := F) x3) :
    after (ops5 (F := F)) W (Proc.devRef .tc main_v13) = val_main_v13 (F := F) x0 x3 := by
  have t_c12 : W (Proc.devRef .tc main_call0_v12) = (TRef.of (T := ⟨S64x900x200, .i1⟩) main_call0_v12).toBuf (val_main_call0_v12 (F := F) x3) := h_c12.trans (tb_c12 _).symm
  have t_v10 : W (Proc.devRef .tc main_v10) = (TRef.of (T := ⟨S64x900x92, .f32⟩) main_v10).toBuf (val_main_v10 (F := F) x0) := h_v10.trans (tb_v10 _).symm
  have t_c5 : W (Proc.devRef .tc main_call0_v5) = (TRef.of (T := ⟨S64x900x200x1, .i32⟩) main_call0_v5).toBuf (val_main_call0_v5 (F := F) x3) := h_c5.trans (tb_c5 _).symm
  refine Eq.trans ?_ (tb_v13 (val_main_v13 (F := F) x0 x3))
  after_results_simp
  try simp only [Cert.Lib.TypedRef.ofBuf_toBuf]
  rw [t_c12, t_v10, t_c5]
  simp only [Cert.Lib.TypedRef.ofBuf_toBuf]
  unfold val_main_v13 val_main_call0_v13 val_main_call0_v14 val_main_call0_cst
  rfl
theorem keep5_a1 (W : Valuation τ sig (Elt F)) : after (ops5 (F := F)) W (Proc.devRef .tc main_arg1) = W (Proc.devRef .tc main_arg1) := by
  after_results_simp <;> rfl
theorem keep5_a2 (W : Valuation τ sig (Elt F)) : after (ops5 (F := F)) W (Proc.devRef .tc main_arg2) = W (Proc.devRef .tc main_arg2) := by
  after_results_simp <;> rfl

/-! ## Stretch 6: the class cost's sign, and the L1 cost from the arguments -/

set_option maxHeartbeats 4000000 in
theorem s6_v14 (W : Valuation τ sig (Elt F)) (x0 : (⟨S64x900x92, .f32⟩ : BufTy).Contents (Elt F)) (x3 : (⟨S64x200, .i32⟩ : BufTy).Contents (Elt F))
    (h_v13 : W (Proc.devRef .tc main_v13) = val_main_v13 (F := F) x0 x3) :
    after (ops6 (F := F)) W (Proc.devRef .tc main_v14) = val_main_v14 (F := F) x0 x3 := by
  after_results_simp
  try simp only [Cert.Lib.TypedRef.ofBuf_toBuf]
  rw [h_v13]
  rfl
set_option maxHeartbeats 4000000 in
theorem s6_v21 (W : Valuation τ sig (Elt F)) :
    after (ops6 (F := F)) W (Proc.devRef .tc main_v21) = val_main_v21 (F := F) (W (Proc.devRef .tc main_arg1)) (W (Proc.devRef .tc main_arg2)) := by
  after_results_simp <;> rfl
theorem keep6_a1 (W : Valuation τ sig (Elt F)) : after (ops6 (F := F)) W (Proc.devRef .tc main_arg1) = W (Proc.devRef .tc main_arg1) := by
  after_results_simp <;> rfl
theorem keep6_a2 (W : Valuation τ sig (Elt F)) : after (ops6 (F := F)) W (Proc.devRef .tc main_arg2) = W (Proc.devRef .tc main_arg2) := by
  after_results_simp <;> rfl

/-! ## Stretch 7: the predicted boxes' four corner columns joined -/

set_option maxHeartbeats 4000000 in
theorem s7_v46 (W : Valuation τ sig (Elt F)) :
    after (ops7 (F := F)) W (Proc.devRef .tc main_v46) = val_main_v46 (F := F) (W (Proc.devRef .tc main_arg1)) := by
  after_results <;> rfl
theorem keep7_v14 (W : Valuation τ sig (Elt F)) : after (ops7 (F := F)) W (Proc.devRef .tc main_v14) = W (Proc.devRef .tc main_v14) := by
  after_results_simp <;> rfl
theorem keep7_v21 (W : Valuation τ sig (Elt F)) : after (ops7 (F := F)) W (Proc.devRef .tc main_v21) = W (Proc.devRef .tc main_v21) := by
  after_results_simp <;> rfl
theorem keep7_a2 (W : Valuation τ sig (Elt F)) : after (ops7 (F := F)) W (Proc.devRef .tc main_arg2) = W (Proc.devRef .tc main_arg2) := by
  after_results_simp <;> rfl

/-! ## Stretch 8: the target boxes' four corner columns joined -/

set_option maxHeartbeats 4000000 in
theorem s8_v71 (W : Valuation τ sig (Elt F)) :
    after (ops8 (F := F)) W (Proc.devRef .tc main_v71) = val_main_v71 (F := F) (W (Proc.devRef .tc main_arg2)) := by
  after_results <;> rfl
theorem keep8_v14 (W : Valuation τ sig (Elt F)) : after (ops8 (F := F)) W (Proc.devRef .tc main_v14) = W (Proc.devRef .tc main_v14) := by
  after_results_simp <;> rfl
theorem keep8_v21 (W : Valuation τ sig (Elt F)) : after (ops8 (F := F)) W (Proc.devRef .tc main_v21) = W (Proc.devRef .tc main_v21) := by
  after_results_simp <;> rfl
theorem keep8_v46 (W : Valuation τ sig (Elt F)) : after (ops8 (F := F)) W (Proc.devRef .tc main_v46) = W (Proc.devRef .tc main_v46) := by
  after_results_simp <;> rfl

/-! ## Stretch 9: the GIoU cost, from the two corner arrays -/

set_option maxHeartbeats 8000000 in
theorem s9_v140 (W : Valuation τ sig (Elt F)) (x1 : (⟨S64x900x4, .f32⟩ : BufTy).Contents (Elt F)) (x2 : (⟨S64x200x4, .f32⟩ : BufTy).Contents (Elt F))
    (h_v46 : W (Proc.devRef .tc main_v46) = val_main_v46 (F := F) x1) (h_v71 : W (Proc.devRef .tc main_v71) = val_main_v71 (F := F) x2) :
    after (ops9 (F := F)) W (Proc.devRef .tc main_v140) = val_main_v140 (F := F) x1 x2 := by
  after_results_simp
  try simp only [Cert.Lib.TypedRef.ofBuf_toBuf]
  rw [h_v46, h_v71]
  rfl
theorem keep9_v14 (W : Valuation τ sig (Elt F)) : after (ops9 (F := F)) W (Proc.devRef .tc main_v14) = W (Proc.devRef .tc main_v14) := by
  after_results_simp <;> rfl
theorem keep9_v21 (W : Valuation τ sig (Elt F)) : after (ops9 (F := F)) W (Proc.devRef .tc main_v21) = W (Proc.devRef .tc main_v21) := by
  after_results_simp <;> rfl

/-! ## Stretch 10: the weighted sum of the three costs -/

set_option maxHeartbeats 4000000 in
theorem s10_v148 (W : Valuation τ sig (Elt F)) (x0 : (⟨S64x900x92, .f32⟩ : BufTy).Contents (Elt F)) (x1 : (⟨S64x900x4, .f32⟩ : BufTy).Contents (Elt F)) (x2 : (⟨S64x200x4, .f32⟩ : BufTy).Contents (Elt F)) (x3 : (⟨S64x200, .i32⟩ : BufTy).Contents (Elt F))
    (h_v21 : W (Proc.devRef .tc main_v21) = val_main_v21 (F := F) x1 x2) (h_v14 : W (Proc.devRef .tc main_v14) = val_main_v14 (F := F) x0 x3) (h_v140 : W (Proc.devRef .tc main_v140) = val_main_v140 (F := F) x1 x2) :
    after (ops10 (F := F)) W (Proc.devRef .tc main_v148) = val_main_v148 (F := F) x0 x1 x2 x3 := by
  after_results_simp
  try simp only [Cert.Lib.TypedRef.ofBuf_toBuf]
  rw [h_v21, h_v14, h_v140]
  rfl

/-! ## The whole line -/

/-- The result buffer after the whole line: the last stage function of the four argument arrays. -/
theorem value (V : Valuation τ sig (Elt F)) :
    after (ops (F := F)) V (Proc.devRef .tc main_v148)
      = val_main_v148 (F := F) (V (Proc.devRef .tc main_arg0)) (V (Proc.devRef .tc main_arg1)) (V (Proc.devRef .tc main_arg2)) (V (Proc.devRef .tc main_arg3)) := by
  rw [ops_split]
  simp only [after_app]
  have hc5 : after (ops3 (F := F)) (after ops2 (after ops1 V)) (Proc.devRef .tc main_call0_v5) = val_main_call0_v5 (F := F) (V (Proc.devRef .tc main_arg3)) :=
    s3_c5 _ _ (s2_c4 _ _ (s1_v12 V))
  refine s10_v148 _ _ _ _ _ ?_ ?_ ?_
  · rw [keep9_v21, keep8_v21, keep7_v21, s6_v21, keep5_a1, keep4_a1, keep3_a1, keep2_a1, keep1_a1, keep5_a2, keep4_a2, keep3_a2, keep2_a2, keep1_a2]
  · rw [keep9_v14, keep8_v14, keep7_v14]
    refine s6_v14 _ _ _ (s5_v13 _ _ _ (s4_c12 _ _ hc5) ?_ ?_)
    · rw [keep4_v10, keep3_v10, keep2_v10, s1_v10]
    · rw [keep4_c5, hc5]
  · refine s9_v140 _ _ _ ?_ ?_
    · rw [keep8_v46, s7_v46, keep6_a1, keep5_a1, keep4_a1, keep3_a1, keep2_a1, keep1_a1]
    · rw [s8_v71, keep7_a2, keep6_a2, keep5_a2, keep4_a2, keep3_a2, keep2_a2, keep1_a2]

set_option maxHeartbeats 40000000 in
/-- An argument buffer is not written by the line. -/
theorem kept (V : Valuation τ sig (Elt F)) :
    after (ops (F := F)) V (Proc.devRef .tc main_arg0) = V (Proc.devRef .tc main_arg0) ∧ after (ops (F := F)) V (Proc.devRef .tc main_arg1) = V (Proc.devRef .tc main_arg1)
    ∧ after (ops (F := F)) V (Proc.devRef .tc main_arg2) = V (Proc.devRef .tc main_arg2) ∧ after (ops (F := F)) V (Proc.devRef .tc main_arg3) = V (Proc.devRef .tc main_arg3) :=
  ⟨by after_results_simp <;> rfl, by after_results_simp <;> rfl, by after_results_simp <;> rfl, by after_results_simp <;> rfl⟩

/-- On every device, for any float values, from any memory with zero counters: every weakly fair execution of the
    reference's @main terminates with the result buffer at the last stage function of the argument arrays and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v148) = val_main_v148 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v148).trans (value (launchContents m c)),
      (h c main_arg0).trans (kept (launchContents m c)).1,
      (h c main_arg1).trans (kept (launchContents m c)).2.1,
      (h c main_arg2).trans (kept (launchContents m c)).2.2.1,
      (h c main_arg3).trans (kept (launchContents m c)).2.2.2⟩)
    (run_seq scopedRefs_eq scopedSems_eq defs main (fun _ => ops) main_eq (fun _ => ops_sub) m ρ)

end Cert.ReferenceIdeal.RunValue

end
-- ==== Proof.RefTotal.lean ====
/-
  The reference's result from its three costs. The last seven operations of the reference scale the L1 cost by 5,
  the class cost by 1 and the GIoU cost by 2 (each scale a broadcast scalar literal) and add them from the left:
  (5 · l1 + 1 · class) + 2 · giou. So once the three cost stages at (b, q, t) are the specification's three costs,
  the result at (b, q, t) is the specification's entry.
-/
import proofs.«403522_j82987358093468_2_alg».proof.Proof.RefRead
import proofs.«403522_j82987358093468_2_alg».proof.Proof.Spec
import Idealize.ShloMosaic.Lib.ValueIdx

noncomputable section

namespace Cert.MatchCost.RefTotal

open Idealize.ShloMosaic Idealize.ShloMosaic.ValueIdx Cert.ReferenceIdeal Cert.ReferenceIdeal.ReadP Cert.MatchCost

/-- The reference's result at (b, q, t) is the cost of the three costs there. -/
theorem total_of_pieces (x0 : (⟨S64x900x92, .f32⟩ : BufTy).Contents (Elt Ideal)) (x1 : (⟨S64x900x4, .f32⟩ : BufTy).Contents (Elt Ideal))
    (x2 : (⟨S64x200x4, .f32⟩ : BufTy).Contents (Elt Ideal)) (x3 : (⟨S64x200, .i32⟩ : BufTy).Contents (Elt Ideal))
    (b : Fin 64) (q : Fin 900) (t : Fin 200) (z : Fin 92 → EReal) (p g : Fin 4 → EReal) (k : Fin 92)
    (hl : val_main_v21 (F := Ideal) x1 x2 (ix3 b q t) = l1 p g)
    (hc : val_main_v14 (F := Ideal) x0 x3 (ix3 b q t) = -(softmax z k))
    (hg : val_main_v140 (F := Ideal) x1 x2 (ix3 b q t) = -(giou p g)) :
    val_main_v148 (F := Ideal) x0 x1 x2 x3 (ix3 b q t) = cost z p g k := by
  rw [val_main_v148_apply, val_main_v145_apply, val_main_v147_apply, val_main_v142_apply, val_main_v144_apply,
    val_main_v141_apply, val_main_v143_apply, val_main_v146_apply, val_main_cst_13_apply, val_main_cst_14_apply,
    val_main_cst_15_apply, hl, hc, hg]
  rfl

end Cert.MatchCost.RefTotal

end
-- ==== Proof.RefClass.lean ====
/-
  The reference's class cost at an entry. The reference takes the softmax of the scores along the class axis and
  gathers, for target t of batch member b, the entry its label names (take_along_axis): it adds 92 to a negative
  index, marks an index outside [0, 91] invalid, gathers at the clamped index and selects a fill value where
  invalid. With every label in [0, 92) no index is negative and none is invalid, so the gathered value is the
  softmax entry at the label, and the cost is its negation.
-/
import proofs.«403522_j82987358093468_2_alg».proof.Proof.RefRead
import proofs.«403522_j82987358093468_2_alg».proof.Proof.Spec
import Idealize.ShloMosaic.PureOps.Ideal.Laws
import Idealize.ShloMosaic.Lib.ValueIdx
import Idealize.ShloMosaic.Lib.Pipeline.Value
import Idealize.ShloMosaic.Lib.ValueLayout
import Idealize.ShloMosaic.Lib.StableHlo.Predicate

noncomputable section

namespace Cert.MatchCost.RefClass

open Idealize.ShloMosaic Idealize.ShloMosaic.ValueIdx Cert.ReferenceIdeal Cert.ReferenceIdeal.ReadP Cert.MatchCost

/-! ## The softmax of a score row -/

/-- The score row of query q of batch member b. -/
abbrev row (x0 : FVec Ideal S64x900x92 .f32) (b : Fin 64) (q : Fin 900) : Fin 92 → EReal := fun c => x0 (ix3 b q c)

/-- The reduction by maximum over the class axis, started at −∞'s pattern, is at (b, q) the fold of `max` over the 92 scores of that row: the row's maximum. -/
theorem rowmax_stage (x0 : FVec Ideal S64x900x92 .f32) (b : Fin 64) (q : Fin 900) :
    val_main_v0 (F := Ideal) x0 (ix2 b q) = rowMax (row x0 b q) := by
  have h : S64x900x92.Reduces [2] S64x900 := by decide
  unfold val_main_v0
  refine (Host.reduce_eq_fold_single (α := Ideal .f32) (s := S64x900x92) (t := S64x900) (a := 2) (u := S_)
    (FloatOps.maximumf (F := Ideal) (φ := .f32)) x0 (val_main_cst (F := Ideal))
    Gen.reducesTo_S64x900x92_S64x900_d2 h Gen.h_S_ (ix2 b q)).trans ?_
  unfold rowMax
  show (Finset.univ : Finset (Fin 92)).fold max cNegInf (fun c => x0 (h.lift (ix2 b q) c)) = _
  refine congrArg (fun f => (Finset.univ : Finset (Fin 92)).fold max cNegInf f) (funext fun c => congrArg x0 ?_)
  funext a
  apply Fin.ext
  match a with
  | ⟨0, _⟩ => rfl
  | ⟨1, _⟩ => rfl
  | ⟨2, _⟩ => rfl

/-- A fold of `max` is at least the value it starts from. -/
theorem rowmax_ge (z : Fin 92 → EReal) : cNegInf ≤ rowMax z :=
  (Finset.le_fold_max _).mpr (Or.inl le_rfl)

/-- Taking the maximum with the starting value once more changes nothing. -/
theorem max_stage (x0 : FVec Ideal S64x900x92 .f32) (b : Fin 64) (q : Fin 900) :
    val_main_v2 (F := Ideal) x0 (ix2 b q) = rowMax (row x0 b q) := by
  rw [val_main_v2_apply, rowmax_stage]
  show max cNegInf (rowMax (row x0 b q)) = _
  exact max_eq_right (rowmax_ge _)

/-- Each score minus its row's maximum, exponentiated. -/
theorem shift_stage (x0 : FVec Ideal S64x900x92 .f32) (b : Fin 64) (q : Fin 900) (c : Fin 92) :
    val_main_v6 (F := Ideal) x0 (ix3 b q c) = expShift (row x0 b q) c := by
  have e : idx_main_v3 (idx_main_v4 (ix3 b q c)) = ix2 b q := by
    funext a; apply Fin.ext; match a with | ⟨0, _⟩ => rfl | ⟨1, _⟩ => rfl
  rw [val_main_v6_apply, val_main_v5_apply, val_main_v4_apply, val_main_v3_apply, e, max_stage]
  rfl

/-- The reduction by addition over the class axis, started at zero, is the sum of the row's 92 shifted exponentials. -/
theorem sum_stage (x0 : FVec Ideal S64x900x92 .f32) (b : Fin 64) (q : Fin 900) :
    val_main_v7 (F := Ideal) x0 (ix2 b q) = ∑ c : Fin 92, expShift (row x0 b q) c := by
  rw [val_main_v7_apply]
  have e0 : val_main_cst_1 (F := Ideal) (Shape.Idx.first Gen.h_S_) = 0 := Ideal.ofBits_zero_f32
  rw [e0, zero_add]
  refine Finset.sum_congr rfl fun k _ => ?_
  have e : idx_main_v7 (ix2 b q) k = ix3 b q k := by
    funext a; apply Fin.ext; match a with | ⟨0, _⟩ => rfl | ⟨1, _⟩ => rfl | ⟨2, _⟩ => rfl
  rw [e, shift_stage]

/-- The quotient of a shifted exponential by its row's sum: the softmax of the row at class c. -/
theorem softmax_stage (x0 : FVec Ideal S64x900x92 .f32) (b : Fin 64) (q : Fin 900) (c : Fin 92) :
    val_main_v10 (F := Ideal) x0 (ix3 b q c) = softmax (row x0 b q) c := by
  have e : idx_main_v8 (idx_main_v9 (ix3 b q c)) = ix2 b q := by
    funext a; apply Fin.ext; match a with | ⟨0, _⟩ => rfl | ⟨1, _⟩ => rfl
  rw [val_main_v10_apply, val_main_v9_apply, val_main_v8_apply, e, sum_stage, shift_stage]
  rfl

/-! ## The index word -/

/-- A class number as a 32-bit word is below 2³¹ as an unsigned number. -/
theorem word_small (k : Fin 92) : (BitVec.ofNat 32 k.val).toNat < 2 ^ 31 := by
  have := k.isLt
  rw [BitVec.toNat_ofNat]
  omega

/-- … and its unsigned value is the class number. -/
theorem word_toNat (k : Fin 92) : (BitVec.ofNat 32 k.val).toNat = k.val := by
  have := k.isLt
  rw [BitVec.toNat_ofNat]
  omega

/-- The labels broadcast over the queries: entry (b, q, t) is the label word of target t of batch member b. -/
theorem label_stage (x3 : IVec S64x200 32) (b : Fin 64) (q : Fin 900) (t : Fin 200) :
    val_main_v12 (F := Ideal) x3 (ix3 b q t) = x3 (ix2 b t) := by
  have e : idx_main_v11 (idx_main_v12 (ix3 b q t)) = ix2 b t := by
    funext a; apply Fin.ext; match a with | ⟨0, _⟩ => rfl | ⟨1, _⟩ => rfl
  rw [val_main_v12_apply, val_main_v11_apply, e]

/-- A label in [0, 92) is not negative as a signed word, so the wrapped index is the label itself. -/
theorem wrapped_stage (x3 : IVec S64x200 32) (k : Fin 92) (b : Fin 64) (q : Fin 900) (t : Fin 200)
    (hk : x3 (ix2 b t) = BitVec.ofNat 32 k.val) :
    val_main_call0_v4 (F := Ideal) x3 (ix3 b q t) = BitVec.ofNat 32 k.val := by
  rw [val_main_call0_v4_apply, val_main_call0_v1_apply, label_stage, hk]
  have hz : val_main_call0_v0 (F := Ideal) (ix3 b q t) = 0#32 := by
    rw [val_main_call0_v0_apply]; rfl
  rw [hz]
  have hneg : IntOp.cmpi .slt (BitVec.ofNat 32 k.val) 0#32 = 0#1 := by
    refine eq_zero_of_ne_one fun h1 => ?_
    have := (StableHlo.Predicate.slt_iff_toNat (word_small k) (by decide)).mp h1
    simp at this
  rw [hneg]
  exact select_zero _ _

/-- The reshape to a trailing unit axis reads the same entry. -/
theorem reshape_idx (b : Fin 64) (q : Fin 900) (t : Fin 200) (u : Fin 1) :
    idx_main_call0_v5 (ix4 b q t u) = ix3 b q t := by
  have hb := b.isLt; have hq := q.isLt; have ht := t.isLt; have hu := u.isLt
  funext a; apply Fin.ext
  match a with
  | ⟨0, _⟩ => show (((b.val * 900 + q.val) * 200 + t.val) * 1 + u.val) / 180000 = b.val; omega
  | ⟨1, _⟩ => show (((b.val * 900 + q.val) * 200 + t.val) * 1 + u.val) / 200 % 900 = q.val; omega
  | ⟨2, _⟩ => show (((b.val * 900 + q.val) * 200 + t.val) * 1 + u.val) % 200 = t.val; omega

/-- The start index the gather reads at (b, q, t): the label's class number as a word. -/
theorem start_stage (x3 : IVec S64x200 32) (k : Fin 92) (b : Fin 64) (q : Fin 900) (t : Fin 200) (u : Fin 1)
    (hk : x3 (ix2 b t) = BitVec.ofNat 32 k.val) :
    val_main_call0_v5 (F := Ideal) x3 (ix4 b q t u) = BitVec.ofNat 32 k.val := by
  rw [val_main_call0_v5_apply, reshape_idx, wrapped_stage x3 k b q t hk]

/-- The validity bit of an index in [0, 91]: both comparisons hold. -/
theorem valid_stage (x3 : IVec S64x200 32) (k : Fin 92) (b : Fin 64) (q : Fin 900) (t : Fin 200) (u : Fin 1)
    (hk : x3 (ix2 b t) = BitVec.ofNat 32 k.val) :
    val_main_call0_v11 (F := Ideal) x3 (ix4 b q t u) = 1#1 := by
  rw [val_main_call0_v11_apply, val_main_call0_v7_apply, val_main_call0_v10_apply, start_stage x3 k b q t u hk]
  have h0 : val_main_call0_v6 (F := Ideal) (ix4 b q t u) = 0#32 := by
    rw [val_main_call0_v6_apply]; rfl
  have h91 : val_main_call0_v9 (F := Ideal) (ix4 b q t u) = 91#32 := by
    rw [val_main_call0_v9_apply, val_main_call0_v8_apply]; rfl
  rw [h0, h91]
  have hge : IntOp.cmpi .sge (BitVec.ofNat 32 k.val) 0#32 = 1#1 :=
    (StableHlo.Predicate.sge_iff_toNat (word_small k) (by decide)).mpr (by simp)
  have hle : IntOp.cmpi .sle (BitVec.ofNat 32 k.val) 91#32 = 1#1 :=
    (StableHlo.Predicate.sle_iff_toNat (word_small k) (by decide)).mpr (by
      rw [word_toNat]; have := k.isLt; show k.val ≤ 91; omega)
  rw [hge, hle]
  rfl

/-! ## The gather -/

/-- The reference's gather record: batch axes 0 and 1, the class axis collapsed and start-indexed. -/
abbrev gd : GatherDims S64x900x92 S64x900x200x1 S64x900x200 := gather_S64x900x92_S64x900x200x1_S64x900x200_n_2_01_01_2_3_111

/-- The gather along the class axis, batched over the first two axes: entry (b, q, t) of the result is the operand at
    (b, q, the start index at (b, q, t) read signed and clamped into [0, 91]). -/
theorem gather_entry {α : Type} (x : S64x900x92.Idx → α) (idx : IVec S64x900x200x1 32) (b : Fin 64) (q : Fin 900) (t : Fin 200) :
    Host.gather gd x idx (ix3 b q t)
      = x (ix3 b q ⟨min (idx (ix4 b q t 0)).toInt.toNat 91, by omega⟩) := by
  unfold Host.gather
  refine congrArg x ?_
  funext a
  apply Fin.ext
  match a with
  | ⟨0, _⟩ =>
    show gd.start (ix3 b q t) idx 0 + gd.batchCoord (ix3 b q t) 0 + gd.offCoord (ix3 b q t) 0 = b.val
    have hs : gd.start (ix3 b q t) idx 0 = 0 := by
      unfold GatherDims.start; exact dif_neg (by decide)
    have hb : gd.batchCoord (ix3 b q t) 0 = b.val := rfl
    have ho : gd.offCoord (ix3 b q t) 0 = 0 := by
      unfold GatherDims.offCoord; exact dif_neg (by decide)
    rw [hs, hb, ho, Nat.zero_add, Nat.add_zero]
  | ⟨1, _⟩ =>
    show gd.start (ix3 b q t) idx 1 + gd.batchCoord (ix3 b q t) 1 + gd.offCoord (ix3 b q t) 1 = q.val
    have hs : gd.start (ix3 b q t) idx 1 = 0 := by
      unfold GatherDims.start; exact dif_neg (by decide)
    have hb : gd.batchCoord (ix3 b q t) 1 = q.val := rfl
    have ho : gd.offCoord (ix3 b q t) 1 = 0 := by
      unfold GatherDims.offCoord; exact dif_neg (by decide)
    rw [hs, hb, ho, Nat.zero_add, Nat.add_zero]
  | ⟨2, _⟩ =>
    show gd.start (ix3 b q t) idx 2 + gd.batchCoord (ix3 b q t) 2 + gd.offCoord (ix3 b q t) 2 = min (idx (ix4 b q t 0)).toInt.toNat 91
    have hb : gd.batchCoord (ix3 b q t) 2 = 0 := by
      unfold GatherDims.batchCoord; exact dif_neg (by decide)
    have ho : gd.offCoord (ix3 b q t) 2 = 0 := by
      unfold GatherDims.offCoord; exact dif_neg (by decide)
    rw [hb, ho]
    show gd.start (ix3 b q t) idx 2 = _
    unfold GatherDims.start
    rw [dif_pos (by decide)]
    refine congrArg (fun j => min (idx j).toInt.toNat 91) ?_
    funext e
    apply Fin.ext
    match e with
    | ⟨0, _⟩ => rfl
    | ⟨1, _⟩ => rfl
    | ⟨2, _⟩ => rfl
    | ⟨3, _⟩ => rfl

/-- With a start index that is a class number the clamp is the identity: the gather reads that class. -/
theorem gather_class {α : Type} (x : S64x900x92.Idx → α) (idx : IVec S64x900x200x1 32) (b : Fin 64) (q : Fin 900) (t : Fin 200)
    (k : Fin 92) (hk : idx (ix4 b q t 0) = BitVec.ofNat 32 k.val) :
    Host.gather gd x idx (ix3 b q t) = x (ix3 b q k) := by
  rw [gather_entry]
  refine congrArg (fun c => x (ix3 b q c)) (Fin.ext ?_)
  have hlt := k.isLt
  show min (idx (ix4 b q t 0)).toInt.toNat 91 = k.val
  rw [hk, StableHlo.Predicate.toInt_ofNat_small k.val (by omega), Int.toNat_natCast]
  omega

/-! ## The validity mask -/

/-- A left fold of `and` from 1 over bits that are all 1 is 1. -/
theorem foldl_andi_ones {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_ones f l fun n hn => h n (List.mem_cons_of_mem _ hn)

/-- Every index is valid, so the reduction of the validity bits over the unit axis is 1 at every entry. -/
theorem mask_stage (x3 : IVec S64x200 32) (ℓ : Fin 64 → Fin 200 → Fin 92)
    (hℓ : ∀ (b : Fin 64) (t : Fin 200), x3 (ix2 b t) = BitVec.ofNat 32 (ℓ b t).val)
    (b : Fin 64) (q : Fin 900) (t : Fin 200) :
    val_main_call0_v12 (F := Ideal) x3 (ix3 b q t) = 1#1 := by
  unfold val_main_call0_v12
  refine (Host.reduce_eq_foldl (s := S64x900x200x1) (t := S64x900x200) (u := S_) IntOp.andi
    (val_main_call0_v11 (F := Ideal) x3) (val_main_call0_c_3 (F := Ideal))
    Gen.reducesTo_S64x900x200x1_S64x900x200_d3 Gen.h_S_ (ix3 b q t)).trans ?_
  have hinit : val_main_call0_c_3 (F := Ideal) (Shape.Idx.first Gen.h_S_) = 1#1 := rfl
  rw [hinit]
  refine foldl_andi_ones _ _ fun j _ => ?_
  obtain ⟨b', q', t', u', rfl⟩ : ∃ (b' : Fin 64) (q' : Fin 900) (t' : Fin 200) (u' : Fin 1), j = ix4 b' q' t' u' :=
    ⟨j 0, j 1, j 2, j 3, eq_ix4 j⟩
  exact valid_stage x3 (ℓ b' t') b' q' t' u' (hℓ b' t')

/-! ## The class cost -/

/-- The reference's class cost at (b, q, t): minus the softmax of the query's score row at the target's class. -/
theorem class_eq (x0 : (⟨S64x900x92, .f32⟩ : BufTy).Contents (Elt Ideal)) (x3 : (⟨S64x200, .i32⟩ : BufTy).Contents (Elt Ideal))
    (ℓ : Fin 64 → Fin 200 → Fin 92) (hℓ : ∀ (b : Fin 64) (t : Fin 200), x3 (ix2 b t) = BitVec.ofNat 32 (ℓ b t).val)
    (b : Fin 64) (q : Fin 900) (t : Fin 200) :
    val_main_v14 (F := Ideal) x0 x3 (ix3 b q t) = -(softmax (fun c => x0 (ix3 b q c)) (ℓ b t)) := by
  rw [val_main_v14_apply, val_main_v13_apply, mask_stage x3 ℓ hℓ b q t, select_one]
  unfold val_main_call0_v13
  rw [gather_class (val_main_v10 (F := Ideal) x0) (val_main_call0_v5 (F := Ideal) x3) b q t (ℓ b t)
    (start_stage x3 (ℓ b t) b q t 0 (hℓ b t)), softmax_stage]
  rfl

end Cert.MatchCost.RefClass

end
-- ==== Proof.RefBoxes.lean ====
/-
  The reference's two box costs at an entry. The reference broadcasts the predicted boxes [64, 900, 4] and the
  target boxes [64, 200, 4] to [64, 900, 200, 4] and works there: the L1 distance is a sum over the last axis; for
  the GIoU it first rewrites each box array from (centre, size) to corners, joins the four corner columns into one
  [.., 4] array and slices it again, and clips at zero by a maximum with a broadcast zero. Read at (b, q, t) every
  stage is the scalar formula of the query's box and the target's box.
-/
import proofs.«403522_j82987358093468_2_alg».proof.Proof.RefRead
import proofs.«403522_j82987358093468_2_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.MatchCost.RefBoxes

open Idealize.ShloMosaic Idealize.ShloMosaic.ValueIdx Cert.ReferenceIdeal Cert.ReferenceIdeal.ReadP Cert.MatchCost

/-! ## The L1 cost -/

/-- The absolute difference array at `(b, q, t, k)`: both broadcasts read their box array at coordinate `k` of the
query's, respectively the target's, box. -/
theorem v20_at (x1 : (⟨S64x900x4, .f32⟩ : BufTy).Contents (Elt Ideal)) (x2 : (⟨S64x200x4, .f32⟩ : BufTy).Contents (Elt Ideal)) (b : Fin 64) (q : Fin 900) (t : Fin 200) (k : Fin 4) :
    val_main_v20 (F := Ideal) x1 x2 (ix4 b q t k) = eabs (x1 (ix3 b q k) - x2 (ix3 b t k)) := by
  rw [val_main_v20_apply, val_main_v19_apply, val_main_v17_apply, val_main_v15_apply, val_main_v18_apply, val_main_v16_apply]
  have e1 : idx_main_v15 (idx_main_v17 (ix4 b q t k)) = ix3 b q k :=
    funext fun a => match a with | ⟨0, _⟩ => rfl | ⟨1, _⟩ => rfl | ⟨2, _⟩ => rfl
  have e2 : idx_main_v16 (idx_main_v18 (ix4 b q t k)) = ix3 b t k :=
    funext fun a => match a with | ⟨0, _⟩ => rfl | ⟨1, _⟩ => rfl | ⟨2, _⟩ => rfl
  rw [e1, e2]
  rfl

/-- The reference's L1 cost at (b, q, t): the L1 distance of the query's box and the target's box. -/
theorem l1_eq (x1 : (⟨S64x900x4, .f32⟩ : BufTy).Contents (Elt Ideal)) (x2 : (⟨S64x200x4, .f32⟩ : BufTy).Contents (Elt Ideal))
    (b : Fin 64) (q : Fin 900) (t : Fin 200) :
    val_main_v21 (F := Ideal) x1 x2 (ix3 b q t) = l1 (fun a => x1 (ix3 b q a)) (fun a => x2 (ix3 b t a)) := by
  -- the sum over the four coordinates, from the left, started at the zero the zero pattern denotes
  rw [val_main_v21_apply, Fin.sum_univ_four]
  have e : ∀ k : Fin 4, idx_main_v21 (ix3 b q t) k = ix4 b q t k := fun k =>
    funext fun a => match a with | ⟨0, _⟩ => rfl | ⟨1, _⟩ => rfl | ⟨2, _⟩ => rfl | ⟨3, _⟩ => rfl
  rw [e, e, e, e, v20_at, v20_at, v20_at, v20_at]
  show Ideal.ofBits .f32 0x00000000#32 + _ = _
  rw [Ideal.ofBits_zero_f32, zero_add]
  rfl

/-! ## The coordinate columns

Coordinate `c` of every box is the slice of the last axis at `c`, with the unit axis then dropped; row `b`, entry `q`
of the result has row-major position `900 b + q` (resp. `200 b + t`), which is entry `(b, q, 0)` of the slice. -/

theorem v23_at (x1 : (⟨S64x900x4, .f32⟩ : BufTy).Contents (Elt Ideal)) (b : Fin 64) (q : Fin 900) :
    val_main_v23 (F := Ideal) x1 (ix2 b q) = x1 (ix3 b q (0 : Fin 4)) := by
  rw [val_main_v23_apply, val_main_v22_apply]
  refine congrArg x1 (funext fun a => Fin.ext ?_)
  have hq := q.isLt
  match a with
  | ⟨0, _⟩ => show (b.val * 900 + q.val) / 900 = b.val; omega
  | ⟨1, _⟩ => show (b.val * 900 + q.val) / 1 % 900 = q.val; omega
  | ⟨2, _⟩ => rfl

theorem v25_at (x1 : (⟨S64x900x4, .f32⟩ : BufTy).Contents (Elt Ideal)) (b : Fin 64) (q : Fin 900) :
    val_main_v25 (F := Ideal) x1 (ix2 b q) = x1 (ix3 b q (1 : Fin 4)) := by
  rw [val_main_v25_apply, val_main_v24_apply]
  refine congrArg x1 (funext fun a => Fin.ext ?_)
  have hq := q.isLt
  match a with
  | ⟨0, _⟩ => show (b.val * 900 + q.val) / 900 = b.val; omega
  | ⟨1, _⟩ => show (b.val * 900 + q.val) / 1 % 900 = q.val; omega
  | ⟨2, _⟩ => rfl

theorem v27_at (x1 : (⟨S64x900x4, .f32⟩ : BufTy).Contents (Elt Ideal)) (b : Fin 64) (q : Fin 900) :
    val_main_v27 (F := Ideal) x1 (ix2 b q) = x1 (ix3 b q (2 : Fin 4)) := by
  rw [val_main_v27_apply, val_main_v26_apply]
  refine congrArg x1 (funext fun a => Fin.ext ?_)
  have hq := q.isLt
  match a with
  | ⟨0, _⟩ => show (b.val * 900 + q.val) / 900 = b.val; omega
  | ⟨1, _⟩ => show (b.val * 900 + q.val) / 1 % 900 = q.val; omega
  | ⟨2, _⟩ => rfl

theorem v29_at (x1 : (⟨S64x900x4, .f32⟩ : BufTy).Contents (Elt Ideal)) (b : Fin 64) (q : Fin 900) :
    val_main_v29 (F := Ideal) x1 (ix2 b q) = x1 (ix3 b q (3 : Fin 4)) := by
  rw [val_main_v29_apply, val_main_v28_apply]
  refine congrArg x1 (funext fun a => Fin.ext ?_)
  have hq := q.isLt
  match a with
  | ⟨0, _⟩ => show (b.val * 900 + q.val) / 900 = b.val; omega
  | ⟨1, _⟩ => show (b.val * 900 + q.val) / 1 % 900 = q.val; omega
  | ⟨2, _⟩ => rfl

theorem v48_at (x2 : (⟨S64x200x4, .f32⟩ : BufTy).Contents (Elt Ideal)) (b : Fin 64) (t : Fin 200) :
    val_main_v48 (F := Ideal) x2 (ix2 b t) = x2 (ix3 b t (0 : Fin 4)) := by
  rw [val_main_v48_apply, val_main_v47_apply]
  refine congrArg x2 (funext fun a => Fin.ext ?_)
  have ht := t.isLt
  match a with
  | ⟨0, _⟩ => show (b.val * 200 + t.val) / 200 = b.val; omega
  | ⟨1, _⟩ => show (b.val * 200 + t.val) / 1 % 200 = t.val; omega
  | ⟨2, _⟩ => rfl

theorem v50_at (x2 : (⟨S64x200x4, .f32⟩ : BufTy).Contents (Elt Ideal)) (b : Fin 64) (t : Fin 200) :
    val_main_v50 (F := Ideal) x2 (ix2 b t) = x2 (ix3 b t (1 : Fin 4)) := by
  rw [val_main_v50_apply, val_main_v49_apply]
  refine congrArg x2 (funext fun a => Fin.ext ?_)
  have ht := t.isLt
  match a with
  | ⟨0, _⟩ => show (b.val * 200 + t.val) / 200 = b.val; omega
  | ⟨1, _⟩ => show (b.val * 200 + t.val) / 1 % 200 = t.val; omega
  | ⟨2, _⟩ => rfl

theorem v52_at (x2 : (⟨S64x200x4, .f32⟩ : BufTy).Contents (Elt Ideal)) (b : Fin 64) (t : Fin 200) :
    val_main_v52 (F := Ideal) x2 (ix2 b t) = x2 (ix3 b t (2 : Fin 4)) := by
  rw [val_main_v52_apply, val_main_v51_apply]
  refine congrArg x2 (funext fun a => Fin.ext ?_)
  have ht := t.isLt
  match a with
  | ⟨0, _⟩ => show (b.val * 200 + t.val) / 200 = b.val; omega
  | ⟨1, _⟩ => show (b.val * 200 + t.val) / 1 % 200 = t.val; omega
  | ⟨2, _⟩ => rfl

theorem v54_at (x2 : (⟨S64x200x4, .f32⟩ : BufTy).Contents (Elt Ideal)) (b : Fin 64) (t : Fin 200) :
    val_main_v54 (F := Ideal) x2 (ix2 b t) = x2 (ix3 b t (3 : Fin 4)) := by
  rw [val_main_v54_apply, val_main_v53_apply]
  refine congrArg x2 (funext fun a => Fin.ext ?_)
  have ht := t.isLt
  match a with
  | ⟨0, _⟩ => show (b.val * 200 + t.val) / 200 = b.val; omega
  | ⟨1, _⟩ => show (b.val * 200 + t.val) / 1 % 200 = t.val; omega
  | ⟨2, _⟩ => rfl

/-! ## The corners

Centre minus, or plus, half the extent: the half is a broadcast scalar and multiplies from the left, as in `lo` and `hi`. -/

theorem v32_at (x1 : (⟨S64x900x4, .f32⟩ : BufTy).Contents (Elt Ideal)) (b : Fin 64) (q : Fin 900) :
    val_main_v32 (F := Ideal) x1 (ix2 b q) = lo (x1 (ix3 b q (0 : Fin 4))) (x1 (ix3 b q (2 : Fin 4))) := by
  rw [val_main_v32_apply, val_main_v31_apply, val_main_v30_apply, val_main_cst_3_apply, v23_at, v27_at]
  rfl

theorem v35_at (x1 : (⟨S64x900x4, .f32⟩ : BufTy).Contents (Elt Ideal)) (b : Fin 64) (q : Fin 900) :
    val_main_v35 (F := Ideal) x1 (ix2 b q) = lo (x1 (ix3 b q (1 : Fin 4))) (x1 (ix3 b q (3 : Fin 4))) := by
  rw [val_main_v35_apply, val_main_v34_apply, val_main_v33_apply, val_main_cst_4_apply, v25_at, v29_at]
  rfl

theorem v38_at (x1 : (⟨S64x900x4, .f32⟩ : BufTy).Contents (Elt Ideal)) (b : Fin 64) (q : Fin 900) :
    val_main_v38 (F := Ideal) x1 (ix2 b q) = hi (x1 (ix3 b q (0 : Fin 4))) (x1 (ix3 b q (2 : Fin 4))) := by
  rw [val_main_v38_apply, val_main_v37_apply, val_main_v36_apply, val_main_cst_5_apply, v23_at, v27_at]
  rfl

theorem v41_at (x1 : (⟨S64x900x4, .f32⟩ : BufTy).Contents (Elt Ideal)) (b : Fin 64) (q : Fin 900) :
    val_main_v41 (F := Ideal) x1 (ix2 b q) = hi (x1 (ix3 b q (1 : Fin 4))) (x1 (ix3 b q (3 : Fin 4))) := by
  rw [val_main_v41_apply, val_main_v40_apply, val_main_v39_apply, val_main_cst_6_apply, v25_at, v29_at]
  rfl

theorem v57_at (x2 : (⟨S64x200x4, .f32⟩ : BufTy).Contents (Elt Ideal)) (b : Fin 64) (t : Fin 200) :
    val_main_v57 (F := Ideal) x2 (ix2 b t) = lo (x2 (ix3 b t (0 : Fin 4))) (x2 (ix3 b t (2 : Fin 4))) := by
  rw [val_main_v57_apply, val_main_v56_apply, val_main_v55_apply, val_main_cst_7_apply, v48_at, v52_at]
  rfl

theorem v60_at (x2 : (⟨S64x200x4, .f32⟩ : BufTy).Contents (Elt Ideal)) (b : Fin 64) (t : Fin 200) :
    val_main_v60 (F := Ideal) x2 (ix2 b t) = lo (x2 (ix3 b t (1 : Fin 4))) (x2 (ix3 b t (3 : Fin 4))) := by
  rw [val_main_v60_apply, val_main_v59_apply, val_main_v58_apply, val_main_cst_8_apply, v50_at, v54_at]
  rfl

theorem v63_at (x2 : (⟨S64x200x4, .f32⟩ : BufTy).Contents (Elt Ideal)) (b : Fin 64) (t : Fin 200) :
    val_main_v63 (F := Ideal) x2 (ix2 b t) = hi (x2 (ix3 b t (0 : Fin 4))) (x2 (ix3 b t (2 : Fin 4))) := by
  rw [val_main_v63_apply, val_main_v62_apply, val_main_v61_apply, val_main_cst_9_apply, v48_at, v52_at]
  rfl

theorem v66_at (x2 : (⟨S64x200x4, .f32⟩ : BufTy).Contents (Elt Ideal)) (b : Fin 64) (t : Fin 200) :
    val_main_v66 (F := Ideal) x2 (ix2 b t) = hi (x2 (ix3 b t (1 : Fin 4))) (x2 (ix3 b t (3 : Fin 4))) := by
  rw [val_main_v66_apply, val_main_v65_apply, val_main_v64_apply, val_main_cst_10_apply, v50_at, v54_at]
  rfl

/-! ## The corner arrays

The four corner columns, each given a trailing unit axis, are joined along that axis. A box's corners as one
function of the joined coordinate: low x, low y, high x, high y. -/

/-- The corners of a box given by centre and size, in the order the reference joins them. -/
def corners (p : Fin 4 → EReal) : Fin 4 → EReal :=
  ![lo (p 0) (p 2), lo (p 1) (p 3), hi (p 0) (p 2), hi (p 1) (p 3)]

section Concat
variable {α : Type}

/-- Four pieces of one shape, each of extent one along the joined axis: the join read at an index is the piece its
coordinate on that axis names, at the index with the same other coordinates. -/
theorem concatenate4_unit_apply {t s₁ : Shape} (a : Fin t.rank) (y0 y1 y2 y3 : s₁.Idx → α)
    (h : Shape.Concatenates ([(⟨s₁, y0⟩ : (s : Shape) × (s.Idx → α)), ⟨s₁, y1⟩, ⟨s₁, y2⟩, ⟨s₁, y3⟩].map (·.1)) t a)
    (hr : s₁.rank = t.rank) (h1 : s₁.size (a.cast hr.symm) = 1) (j : t.Idx) (n : Fin 4) (hn : (j a).val = n.val)
    (i : s₁.Idx) (hi : ∀ b : Fin s₁.rank, b.cast hr ≠ a → (i b).val = (j (b.cast hr)).val) :
    concatenate t a [⟨s₁, y0⟩, ⟨s₁, y1⟩, ⟨s₁, y2⟩, ⟨s₁, y3⟩] h j = (![y0, y1, y2, y3] n) i :=
  concatenate_ofFn_unit_apply a ![y0, y1, y2, y3] h hr h1 j n hn i hi

end Concat

theorem v42_at (x1 : (⟨S64x900x4, .f32⟩ : BufTy).Contents (Elt Ideal)) (b : Fin 64) (q : Fin 900) :
    val_main_v42 (F := Ideal) x1 (ix3 b q (0 : Fin 1)) = lo (x1 (ix3 b q (0 : Fin 4))) (x1 (ix3 b q (2 : Fin 4))) := by
  rw [val_main_v42_apply]
  have e : idx_main_v42 (ix3 b q (0 : Fin 1)) = ix2 b q := funext fun a => match a with | ⟨0, _⟩ => rfl | ⟨1, _⟩ => rfl
  rw [e, v32_at]

theorem v43_at (x1 : (⟨S64x900x4, .f32⟩ : BufTy).Contents (Elt Ideal)) (b : Fin 64) (q : Fin 900) :
    val_main_v43 (F := Ideal) x1 (ix3 b q (0 : Fin 1)) = lo (x1 (ix3 b q (1 : Fin 4))) (x1 (ix3 b q (3 : Fin 4))) := by
  rw [val_main_v43_apply]
  have e : idx_main_v43 (ix3 b q (0 : Fin 1)) = ix2 b q := funext fun a => match a with | ⟨0, _⟩ => rfl | ⟨1, _⟩ => rfl
  rw [e, v35_at]

theorem v44_at (x1 : (⟨S64x900x4, .f32⟩ : BufTy).Contents (Elt Ideal)) (b : Fin 64) (q : Fin 900) :
    val_main_v44 (F := Ideal) x1 (ix3 b q (0 : Fin 1)) = hi (x1 (ix3 b q (0 : Fin 4))) (x1 (ix3 b q (2 : Fin 4))) := by
  rw [val_main_v44_apply]
  have e : idx_main_v44 (ix3 b q (0 : Fin 1)) = ix2 b q := funext fun a => match a with | ⟨0, _⟩ => rfl | ⟨1, _⟩ => rfl
  rw [e, v38_at]

theorem v45_at (x1 : (⟨S64x900x4, .f32⟩ : BufTy).Contents (Elt Ideal)) (b : Fin 64) (q : Fin 900) :
    val_main_v45 (F := Ideal) x1 (ix3 b q (0 : Fin 1)) = hi (x1 (ix3 b q (1 : Fin 4))) (x1 (ix3 b q (3 : Fin 4))) := by
  rw [val_main_v45_apply]
  have e : idx_main_v45 (ix3 b q (0 : Fin 1)) = ix2 b q := funext fun a => match a with | ⟨0, _⟩ => rfl | ⟨1, _⟩ => rfl
  rw [e, v41_at]

theorem v67_at (x2 : (⟨S64x200x4, .f32⟩ : BufTy).Contents (Elt Ideal)) (b : Fin 64) (t : Fin 200) :
    val_main_v67 (F := Ideal) x2 (ix3 b t (0 : Fin 1)) = lo (x2 (ix3 b t (0 : Fin 4))) (x2 (ix3 b t (2 : Fin 4))) := by
  rw [val_main_v67_apply]
  have e : idx_main_v67 (ix3 b t (0 : Fin 1)) = ix2 b t := funext fun a => match a with | ⟨0, _⟩ => rfl | ⟨1, _⟩ => rfl
  rw [e, v57_at]

theorem v68_at (x2 : (⟨S64x200x4, .f32⟩ : BufTy).Contents (Elt Ideal)) (b : Fin 64) (t : Fin 200) :
    val_main_v68 (F := Ideal) x2 (ix3 b t (0 : Fin 1)) = lo (x2 (ix3 b t (1 : Fin 4))) (x2 (ix3 b t (3 : Fin 4))) := by
  rw [val_main_v68_apply]
  have e : idx_main_v68 (ix3 b t (0 : Fin 1)) = ix2 b t := funext fun a => match a with | ⟨0, _⟩ => rfl | ⟨1, _⟩ => rfl
  rw [e, v60_at]

theorem v69_at (x2 : (⟨S64x200x4, .f32⟩ : BufTy).Contents (Elt Ideal)) (b : Fin 64) (t : Fin 200) :
    val_main_v69 (F := Ideal) x2 (ix3 b t (0 : Fin 1)) = hi (x2 (ix3 b t (0 : Fin 4))) (x2 (ix3 b t (2 : Fin 4))) := by
  rw [val_main_v69_apply]
  have e : idx_main_v69 (ix3 b t (0 : Fin 1)) = ix2 b t := funext fun a => match a with | ⟨0, _⟩ => rfl | ⟨1, _⟩ => rfl
  rw [e, v63_at]

theorem v70_at (x2 : (⟨S64x200x4, .f32⟩ : BufTy).Contents (Elt Ideal)) (b : Fin 64) (t : Fin 200) :
    val_main_v70 (F := Ideal) x2 (ix3 b t (0 : Fin 1)) = hi (x2 (ix3 b t (1 : Fin 4))) (x2 (ix3 b t (3 : Fin 4))) := by
  rw [val_main_v70_apply]
  have e : idx_main_v70 (ix3 b t (0 : Fin 1)) = ix2 b t := funext fun a => match a with | ⟨0, _⟩ => rfl | ⟨1, _⟩ => rfl
  rw [e, v66_at]

/-- The queries' joined array at `(b, q, k)`: corner `k` of the query's box. -/
theorem v46_eq (x1 : (⟨S64x900x4, .f32⟩ : BufTy).Contents (Elt Ideal)) (b : Fin 64) (q : Fin 900) (k : Fin 4) :
    val_main_v46 (F := Ideal) x1 (ix3 b q k) = corners (fun a => x1 (ix3 b q a)) k := by
  have h : val_main_v46 (F := Ideal) x1 (ix3 b q k)
      = (![val_main_v42 (F := Ideal) x1, val_main_v43 (F := Ideal) x1, val_main_v44 (F := Ideal) x1,
          val_main_v45 (F := Ideal) x1] k) (ix3 b q (0 : Fin 1)) := by
    unfold val_main_v46
    exact concatenate4_unit_apply (t := S64x900x4) (s₁ := S64x900x1) 2 _ _ _ _ _ rfl rfl (ix3 b q k) k rfl
      (ix3 b q (0 : Fin 1)) (fun c hc => by
        match c with
        | ⟨0, _⟩ => rfl
        | ⟨1, _⟩ => rfl
        | ⟨2, _⟩ => exact absurd rfl hc)
  rw [h]
  match k with
  | ⟨0, _⟩ => exact v42_at x1 b q
  | ⟨1, _⟩ => exact v43_at x1 b q
  | ⟨2, _⟩ => exact v44_at x1 b q
  | ⟨3, _⟩ => exact v45_at x1 b q

/-- The targets' joined array at `(b, t, k)`: corner `k` of the target's box. -/
theorem v71_eq (x2 : (⟨S64x200x4, .f32⟩ : BufTy).Contents (Elt Ideal)) (b : Fin 64) (t : Fin 200) (k : Fin 4) :
    val_main_v71 (F := Ideal) x2 (ix3 b t k) = corners (fun a => x2 (ix3 b t a)) k := by
  have h : val_main_v71 (F := Ideal) x2 (ix3 b t k)
      = (![val_main_v67 (F := Ideal) x2, val_main_v68 (F := Ideal) x2, val_main_v69 (F := Ideal) x2,
          val_main_v70 (F := Ideal) x2] k) (ix3 b t (0 : Fin 1)) := by
    unfold val_main_v71
    exact concatenate4_unit_apply (t := S64x200x4) (s₁ := S64x200x1) 2 _ _ _ _ _ rfl rfl (ix3 b t k) k rfl
      (ix3 b t (0 : Fin 1)) (fun c hc => by
        match c with
        | ⟨0, _⟩ => rfl
        | ⟨1, _⟩ => rfl
        | ⟨2, _⟩ => exact absurd rfl hc)
  rw [h]
  match k with
  | ⟨0, _⟩ => exact v67_at x2 b t
  | ⟨1, _⟩ => exact v68_at x2 b t
  | ⟨2, _⟩ => exact v69_at x2 b t
  | ⟨3, _⟩ => exact v70_at x2 b t

/-! ## The areas

Each area slices the joined corner array again: high x less low x, times high y less low y. -/

theorem v73_at (x1 : (⟨S64x900x4, .f32⟩ : BufTy).Contents (Elt Ideal)) (b : Fin 64) (q : Fin 900) :
    val_main_v73 (F := Ideal) x1 (ix2 b q) = hi (x1 (ix3 b q (0 : Fin 4))) (x1 (ix3 b q (2 : Fin 4))) := by
  rw [val_main_v73_apply, val_main_v72_apply]
  have e : idx_main_v72 (idx_main_v73 (ix2 b q)) = ix3 b q (2 : Fin 4) := by
    refine funext fun a => Fin.ext ?_
    have hq := q.isLt
    match a with
    | ⟨0, _⟩ => show (b.val * 900 + q.val) / 900 = b.val; omega
    | ⟨1, _⟩ => show (b.val * 900 + q.val) / 1 % 900 = q.val; omega
    | ⟨2, _⟩ => rfl
  rw [e, v46_eq]
  rfl

theorem v75_at (x1 : (⟨S64x900x4, .f32⟩ : BufTy).Contents (Elt Ideal)) (b : Fin 64) (q : Fin 900) :
    val_main_v75 (F := Ideal) x1 (ix2 b q) = lo (x1 (ix3 b q (0 : Fin 4))) (x1 (ix3 b q (2 : Fin 4))) := by
  rw [val_main_v75_apply, val_main_v74_apply]
  have e : idx_main_v74 (idx_main_v75 (ix2 b q)) = ix3 b q (0 : Fin 4) := by
    refine funext fun a => Fin.ext ?_
    have hq := q.isLt
    match a with
    | ⟨0, _⟩ => show (b.val * 900 + q.val) / 900 = b.val; omega
    | ⟨1, _⟩ => show (b.val * 900 + q.val) / 1 % 900 = q.val; omega
    | ⟨2, _⟩ => rfl
  rw [e, v46_eq]
  rfl

theorem v78_at (x1 : (⟨S64x900x4, .f32⟩ : BufTy).Contents (Elt Ideal)) (b : Fin 64) (q : Fin 900) :
    val_main_v78 (F := Ideal) x1 (ix2 b q) = hi (x1 (ix3 b q (1 : Fin 4))) (x1 (ix3 b q (3 : Fin 4))) := by
  rw [val_main_v78_apply, val_main_v77_apply]
  have e : idx_main_v77 (idx_main_v78 (ix2 b q)) = ix3 b q (3 : Fin 4) := by
    refine funext fun a => Fin.ext ?_
    have hq := q.isLt
    match a with
    | ⟨0, _⟩ => show (b.val * 900 + q.val) / 900 = b.val; omega
    | ⟨1, _⟩ => show (b.val * 900 + q.val) / 1 % 900 = q.val; omega
    | ⟨2, _⟩ => rfl
  rw [e, v46_eq]
  rfl

theorem v80_at (x1 : (⟨S64x900x4, .f32⟩ : BufTy).Contents (Elt Ideal)) (b : Fin 64) (q : Fin 900) :
    val_main_v80 (F := Ideal) x1 (ix2 b q) = lo (x1 (ix3 b q (1 : Fin 4))) (x1 (ix3 b q (3 : Fin 4))) := by
  rw [val_main_v80_apply, val_main_v79_apply]
  have e : idx_main_v79 (idx_main_v80 (ix2 b q)) = ix3 b q (1 : Fin 4) := by
    refine funext fun a => Fin.ext ?_
    have hq := q.isLt
    match a with
    | ⟨0, _⟩ => show (b.val * 900 + q.val) / 900 = b.val; omega
    | ⟨1, _⟩ => show (b.val * 900 + q.val) / 1 % 900 = q.val; omega
    | ⟨2, _⟩ => rfl
  rw [e, v46_eq]
  rfl

/-- The queries' area array at `(b, q)`. -/
theorem v82_at (x1 : (⟨S64x900x4, .f32⟩ : BufTy).Contents (Elt Ideal)) (b : Fin 64) (q : Fin 900) :
    val_main_v82 (F := Ideal) x1 (ix2 b q) = area (fun a => x1 (ix3 b q a)) := by
  rw [val_main_v82_apply, val_main_v76_apply, val_main_v81_apply, v73_at, v75_at, v78_at, v80_at]
  rfl

theorem v84_at (x2 : (⟨S64x200x4, .f32⟩ : BufTy).Contents (Elt Ideal)) (b : Fin 64) (t : Fin 200) :
    val_main_v84 (F := Ideal) x2 (ix2 b t) = hi (x2 (ix3 b t (0 : Fin 4))) (x2 (ix3 b t (2 : Fin 4))) := by
  rw [val_main_v84_apply, val_main_v83_apply]
  have e : idx_main_v83 (idx_main_v84 (ix2 b t)) = ix3 b t (2 : Fin 4) := by
    refine funext fun a => Fin.ext ?_
    have ht := t.isLt
    match a with
    | ⟨0, _⟩ => show (b.val * 200 + t.val) / 200 = b.val; omega
    | ⟨1, _⟩ => show (b.val * 200 + t.val) / 1 % 200 = t.val; omega
    | ⟨2, _⟩ => rfl
  rw [e, v71_eq]
  rfl

theorem v86_at (x2 : (⟨S64x200x4, .f32⟩ : BufTy).Contents (Elt Ideal)) (b : Fin 64) (t : Fin 200) :
    val_main_v86 (F := Ideal) x2 (ix2 b t) = lo (x2 (ix3 b t (0 : Fin 4))) (x2 (ix3 b t (2 : Fin 4))) := by
  rw [val_main_v86_apply, val_main_v85_apply]
  have e : idx_main_v85 (idx_main_v86 (ix2 b t)) = ix3 b t (0 : Fin 4) := by
    refine funext fun a => Fin.ext ?_
    have ht := t.isLt
    match a with
    | ⟨0, _⟩ => show (b.val * 200 + t.val) / 200 = b.val; omega
    | ⟨1, _⟩ => show (b.val * 200 + t.val) / 1 % 200 = t.val; omega
    | ⟨2, _⟩ => rfl
  rw [e, v71_eq]
  rfl

theorem v89_at (x2 : (⟨S64x200x4, .f32⟩ : BufTy).Contents (Elt Ideal)) (b : Fin 64) (t : Fin 200) :
    val_main_v89 (F := Ideal) x2 (ix2 b t) = hi (x2 (ix3 b t (1 : Fin 4))) (x2 (ix3 b t (3 : Fin 4))) := by
  rw [val_main_v89_apply, val_main_v88_apply]
  have e : idx_main_v88 (idx_main_v89 (ix2 b t)) = ix3 b t (3 : Fin 4) := by
    refine funext fun a => Fin.ext ?_
    have ht := t.isLt
    match a with
    | ⟨0, _⟩ => show (b.val * 200 + t.val) / 200 = b.val; omega
    | ⟨1, _⟩ => show (b.val * 200 + t.val) / 1 % 200 = t.val; omega
    | ⟨2, _⟩ => rfl
  rw [e, v71_eq]
  rfl

theorem v91_at (x2 : (⟨S64x200x4, .f32⟩ : BufTy).Contents (Elt Ideal)) (b : Fin 64) (t : Fin 200) :
    val_main_v91 (F := Ideal) x2 (ix2 b t) = lo (x2 (ix3 b t (1 : Fin 4))) (x2 (ix3 b t (3 : Fin 4))) := by
  rw [val_main_v91_apply, val_main_v90_apply]
  have e : idx_main_v90 (idx_main_v91 (ix2 b t)) = ix3 b t (1 : Fin 4) := by
    refine funext fun a => Fin.ext ?_
    have ht := t.isLt
    match a with
    | ⟨0, _⟩ => show (b.val * 200 + t.val) / 200 = b.val; omega
    | ⟨1, _⟩ => show (b.val * 200 + t.val) / 1 % 200 = t.val; omega
    | ⟨2, _⟩ => rfl
  rw [e, v71_eq]
  rfl

/-- The targets' area array at `(b, t)`. -/
theorem v93_at (x2 : (⟨S64x200x4, .f32⟩ : BufTy).Contents (Elt Ideal)) (b : Fin 64) (t : Fin 200) :
    val_main_v93 (F := Ideal) x2 (ix2 b t) = area (fun a => x2 (ix3 b t a)) := by
  rw [val_main_v93_apply, val_main_v87_apply, val_main_v92_apply, v84_at, v86_at, v89_at, v91_at]
  rfl

/-! ## Corner pairs against each other

Both corner arrays are broadcast to `[64, 900, 200, ·]`, two corners at a time: component `c` of the low pair is
corner `c`, of the high pair corner `2 + c`. The corner is named by `k` with `k = c`, resp. `k = 2 + c`, as numbers. -/

theorem v98_at (x1 : (⟨S64x900x4, .f32⟩ : BufTy).Contents (Elt Ideal)) (b : Fin 64) (q : Fin 900) (t : Fin 200) (c : Fin 2) (k : Fin 4) (hk : k.val = c.val) :
    val_main_v98 (F := Ideal) x1 (ix4 b q t c) = corners (fun a => x1 (ix3 b q a)) k := by
  rw [val_main_v98_apply, val_main_v96_apply, val_main_v94_apply]
  have e : idx_main_v94 (idx_main_v96 (idx_main_v98 (ix4 b q t c))) = ix3 b q k :=
    funext fun a => Fin.ext (by match a with | ⟨0, _⟩ => rfl | ⟨1, _⟩ => rfl | ⟨2, _⟩ => exact hk.symm)
  rw [e, v46_eq]

theorem v99_at (x2 : (⟨S64x200x4, .f32⟩ : BufTy).Contents (Elt Ideal)) (b : Fin 64) (q : Fin 900) (t : Fin 200) (c : Fin 2) (k : Fin 4) (hk : k.val = c.val) :
    val_main_v99 (F := Ideal) x2 (ix4 b q t c) = corners (fun a => x2 (ix3 b t a)) k := by
  rw [val_main_v99_apply, val_main_v97_apply, val_main_v95_apply]
  have e : idx_main_v95 (idx_main_v97 (idx_main_v99 (ix4 b q t c))) = ix3 b t k :=
    funext fun a => Fin.ext (by match a with | ⟨0, _⟩ => rfl | ⟨1, _⟩ => rfl | ⟨2, _⟩ => exact hk.symm)
  rw [e, v71_eq]

theorem v103_at (x1 : (⟨S64x900x4, .f32⟩ : BufTy).Contents (Elt Ideal)) (b : Fin 64) (q : Fin 900) (t : Fin 200) (c : Fin 2) (k : Fin 4) (hk : k.val = 2 + c.val) :
    val_main_v103 (F := Ideal) x1 (ix4 b q t c) = corners (fun a => x1 (ix3 b q a)) k := by
  rw [val_main_v103_apply, val_main_v101_apply, val_main_v94_apply]
  have e : idx_main_v94 (idx_main_v101 (idx_main_v103 (ix4 b q t c))) = ix3 b q k :=
    funext fun a => Fin.ext (by match a with | ⟨0, _⟩ => rfl | ⟨1, _⟩ => rfl | ⟨2, _⟩ => exact hk.symm)
  rw [e, v46_eq]

theorem v104_at (x2 : (⟨S64x200x4, .f32⟩ : BufTy).Contents (Elt Ideal)) (b : Fin 64) (q : Fin 900) (t : Fin 200) (c : Fin 2) (k : Fin 4) (hk : k.val = 2 + c.val) :
    val_main_v104 (F := Ideal) x2 (ix4 b q t c) = corners (fun a => x2 (ix3 b t a)) k := by
  rw [val_main_v104_apply, val_main_v102_apply, val_main_v95_apply]
  have e : idx_main_v95 (idx_main_v102 (idx_main_v104 (ix4 b q t c))) = ix3 b t k :=
    funext fun a => Fin.ext (by match a with | ⟨0, _⟩ => rfl | ⟨1, _⟩ => rfl | ⟨2, _⟩ => exact hk.symm)
  rw [e, v71_eq]

theorem v122_at (x1 : (⟨S64x900x4, .f32⟩ : BufTy).Contents (Elt Ideal)) (b : Fin 64) (q : Fin 900) (t : Fin 200) (c : Fin 2) (k : Fin 4) (hk : k.val = c.val) :
    val_main_v122 (F := Ideal) x1 (ix4 b q t c) = corners (fun a => x1 (ix3 b q a)) k := by
  rw [val_main_v122_apply, val_main_v120_apply, val_main_v94_apply]
  have e : idx_main_v94 (idx_main_v120 (idx_main_v122 (ix4 b q t c))) = ix3 b q k :=
    funext fun a => Fin.ext (by match a with | ⟨0, _⟩ => rfl | ⟨1, _⟩ => rfl | ⟨2, _⟩ => exact hk.symm)
  rw [e, v46_eq]

theorem v123_at (x2 : (⟨S64x200x4, .f32⟩ : BufTy).Contents (Elt Ideal)) (b : Fin 64) (q : Fin 900) (t : Fin 200) (c : Fin 2) (k : Fin 4) (hk : k.val = c.val) :
    val_main_v123 (F := Ideal) x2 (ix4 b q t c) = corners (fun a => x2 (ix3 b t a)) k := by
  rw [val_main_v123_apply, val_main_v121_apply, val_main_v95_apply]
  have e : idx_main_v95 (idx_main_v121 (idx_main_v123 (ix4 b q t c))) = ix3 b t k :=
    funext fun a => Fin.ext (by match a with | ⟨0, _⟩ => rfl | ⟨1, _⟩ => rfl | ⟨2, _⟩ => exact hk.symm)
  rw [e, v71_eq]

theorem v127_at (x1 : (⟨S64x900x4, .f32⟩ : BufTy).Contents (Elt Ideal)) (b : Fin 64) (q : Fin 900) (t : Fin 200) (c : Fin 2) (k : Fin 4) (hk : k.val = 2 + c.val) :
    val_main_v127 (F := Ideal) x1 (ix4 b q t c) = corners (fun a => x1 (ix3 b q a)) k := by
  rw [val_main_v127_apply, val_main_v125_apply, val_main_v94_apply]
  have e : idx_main_v94 (idx_main_v125 (idx_main_v127 (ix4 b q t c))) = ix3 b q k :=
    funext fun a => Fin.ext (by match a with | ⟨0, _⟩ => rfl | ⟨1, _⟩ => rfl | ⟨2, _⟩ => exact hk.symm)
  rw [e, v46_eq]

theorem v128_at (x2 : (⟨S64x200x4, .f32⟩ : BufTy).Contents (Elt Ideal)) (b : Fin 64) (q : Fin 900) (t : Fin 200) (c : Fin 2) (k : Fin 4) (hk : k.val = 2 + c.val) :
    val_main_v128 (F := Ideal) x2 (ix4 b q t c) = corners (fun a => x2 (ix3 b t a)) k := by
  rw [val_main_v128_apply, val_main_v126_apply, val_main_v95_apply]
  have e : idx_main_v95 (idx_main_v126 (idx_main_v128 (ix4 b q t c))) = ix3 b t k :=
    funext fun a => Fin.ext (by match a with | ⟨0, _⟩ => rfl | ⟨1, _⟩ => rfl | ⟨2, _⟩ => exact hk.symm)
  rw [e, v71_eq]

/-! ## The overlap

Per axis: the smaller high corner less the larger low corner, clipped at zero. The clip is a maximum with a
broadcast zero written first; `max` commutes, so it is the clip with the zero written second. -/

theorem v107_at (x1 : (⟨S64x900x4, .f32⟩ : BufTy).Contents (Elt Ideal)) (x2 : (⟨S64x200x4, .f32⟩ : BufTy).Contents (Elt Ideal)) (b : Fin 64) (q : Fin 900) (t : Fin 200) (c : Fin 2)
    (kl kh : Fin 4) (hl : kl.val = c.val) (hh : kh.val = 2 + c.val) :
    val_main_v107 (F := Ideal) x1 x2 (ix4 b q t c)
      = max (min (corners (fun a => x1 (ix3 b q a)) kh) (corners (fun a => x2 (ix3 b t a)) kh)
            - max (corners (fun a => x1 (ix3 b q a)) kl) (corners (fun a => x2 (ix3 b t a)) kl)) cZero := by
  rw [val_main_v107_apply, val_main_call1_v1_apply, val_main_call1_v0_apply, val_main_cst_11_apply, val_main_v106_apply,
    val_main_v105_apply, val_main_v100_apply, v103_at x1 b q t c kh hh, v104_at x2 b q t c kh hh,
    v98_at x1 b q t c kl hl, v99_at x2 b q t c kl hl]
  exact max_comm _ _

theorem v109_at (x1 : (⟨S64x900x4, .f32⟩ : BufTy).Contents (Elt Ideal)) (x2 : (⟨S64x200x4, .f32⟩ : BufTy).Contents (Elt Ideal)) (b : Fin 64) (q : Fin 900) (t : Fin 200) :
    val_main_v109 (F := Ideal) x1 x2 (ix3 b q t)
      = max (min (hi (x1 (ix3 b q (0 : Fin 4))) (x1 (ix3 b q (2 : Fin 4)))) (hi (x2 (ix3 b t (0 : Fin 4))) (x2 (ix3 b t (2 : Fin 4)))) - max (lo (x1 (ix3 b q (0 : Fin 4))) (x1 (ix3 b q (2 : Fin 4)))) (lo (x2 (ix3 b t (0 : Fin 4))) (x2 (ix3 b t (2 : Fin 4))))) cZero := by
  rw [val_main_v109_apply, val_main_v108_apply]
  have e : idx_main_v108 (idx_main_v109 (ix3 b q t)) = ix4 b q t (0 : Fin 2) := by
    refine funext fun a => Fin.ext ?_
    have hq := q.isLt
    have ht := t.isLt
    match a with
    | ⟨0, _⟩ => show ((b.val * 900 + q.val) * 200 + t.val) / 180000 = b.val; omega
    | ⟨1, _⟩ => show ((b.val * 900 + q.val) * 200 + t.val) / 200 % 900 = q.val; omega
    | ⟨2, _⟩ => show ((b.val * 900 + q.val) * 200 + t.val) / 1 % 200 = t.val; omega
    | ⟨3, _⟩ => rfl
  rw [e, v107_at x1 x2 b q t 0 0 2 rfl rfl]
  rfl

theorem v111_at (x1 : (⟨S64x900x4, .f32⟩ : BufTy).Contents (Elt Ideal)) (x2 : (⟨S64x200x4, .f32⟩ : BufTy).Contents (Elt Ideal)) (b : Fin 64) (q : Fin 900) (t : Fin 200) :
    val_main_v111 (F := Ideal) x1 x2 (ix3 b q t)
      = max (min (hi (x1 (ix3 b q (1 : Fin 4))) (x1 (ix3 b q (3 : Fin 4)))) (hi (x2 (ix3 b t (1 : Fin 4))) (x2 (ix3 b t (3 : Fin 4)))) - max (lo (x1 (ix3 b q (1 : Fin 4))) (x1 (ix3 b q (3 : Fin 4)))) (lo (x2 (ix3 b t (1 : Fin 4))) (x2 (ix3 b t (3 : Fin 4))))) cZero := by
  rw [val_main_v111_apply, val_main_v110_apply]
  have e : idx_main_v110 (idx_main_v111 (ix3 b q t)) = ix4 b q t (1 : Fin 2) := by
    refine funext fun a => Fin.ext ?_
    have hq := q.isLt
    have ht := t.isLt
    match a with
    | ⟨0, _⟩ => show ((b.val * 900 + q.val) * 200 + t.val) / 180000 = b.val; omega
    | ⟨1, _⟩ => show ((b.val * 900 + q.val) * 200 + t.val) / 200 % 900 = q.val; omega
    | ⟨2, _⟩ => show ((b.val * 900 + q.val) * 200 + t.val) / 1 % 200 = t.val; omega
    | ⟨3, _⟩ => rfl
  rw [e, v107_at x1 x2 b q t 1 1 3 rfl rfl]
  rfl

/-- The overlap array at `(b, q, t)`. -/
theorem v112_at (x1 : (⟨S64x900x4, .f32⟩ : BufTy).Contents (Elt Ideal)) (x2 : (⟨S64x200x4, .f32⟩ : BufTy).Contents (Elt Ideal)) (b : Fin 64) (q : Fin 900) (t : Fin 200) :
    val_main_v112 (F := Ideal) x1 x2 (ix3 b q t) = inter (fun a => x1 (ix3 b q a)) (fun a => x2 (ix3 b t a)) := by
  rw [val_main_v112_apply, v109_at, v111_at]
  rfl

/-! ## The union and the IoU -/

theorem v115_at (x1 : (⟨S64x900x4, .f32⟩ : BufTy).Contents (Elt Ideal)) (b : Fin 64) (q : Fin 900) (t : Fin 200) :
    val_main_v115 (F := Ideal) x1 (ix3 b q t) = area (fun a => x1 (ix3 b q a)) := by
  rw [val_main_v115_apply, val_main_v113_apply]
  have e : idx_main_v113 (idx_main_v115 (ix3 b q t)) = ix2 b q := funext fun a => match a with | ⟨0, _⟩ => rfl | ⟨1, _⟩ => rfl
  rw [e, v82_at]

theorem v116_at (x2 : (⟨S64x200x4, .f32⟩ : BufTy).Contents (Elt Ideal)) (b : Fin 64) (q : Fin 900) (t : Fin 200) :
    val_main_v116 (F := Ideal) x2 (ix3 b q t) = area (fun a => x2 (ix3 b t a)) := by
  rw [val_main_v116_apply, val_main_v114_apply]
  have e : idx_main_v114 (idx_main_v116 (ix3 b q t)) = ix2 b t := funext fun a => match a with | ⟨0, _⟩ => rfl | ⟨1, _⟩ => rfl
  rw [e, v93_at]

/-- The union array at `(b, q, t)`: the two areas less the overlap. -/
theorem v118_at (x1 : (⟨S64x900x4, .f32⟩ : BufTy).Contents (Elt Ideal)) (x2 : (⟨S64x200x4, .f32⟩ : BufTy).Contents (Elt Ideal)) (b : Fin 64) (q : Fin 900) (t : Fin 200) :
    val_main_v118 (F := Ideal) x1 x2 (ix3 b q t) = union (fun a => x1 (ix3 b q a)) (fun a => x2 (ix3 b t a)) := by
  rw [val_main_v118_apply, val_main_v117_apply, v115_at, v116_at, v112_at]
  rfl

/-! ## The enclosing box -/

theorem v131_at (x1 : (⟨S64x900x4, .f32⟩ : BufTy).Contents (Elt Ideal)) (x2 : (⟨S64x200x4, .f32⟩ : BufTy).Contents (Elt Ideal)) (b : Fin 64) (q : Fin 900) (t : Fin 200) (c : Fin 2)
    (kl kh : Fin 4) (hl : kl.val = c.val) (hh : kh.val = 2 + c.val) :
    val_main_v131 (F := Ideal) x1 x2 (ix4 b q t c)
      = max (max (corners (fun a => x1 (ix3 b q a)) kh) (corners (fun a => x2 (ix3 b t a)) kh)
            - min (corners (fun a => x1 (ix3 b q a)) kl) (corners (fun a => x2 (ix3 b t a)) kl)) cZero := by
  rw [val_main_v131_apply, val_main_call2_v1_apply, val_main_call2_v0_apply, val_main_cst_12_apply, val_main_v130_apply,
    val_main_v129_apply, val_main_v124_apply, v127_at x1 b q t c kh hh, v128_at x2 b q t c kh hh,
    v122_at x1 b q t c kl hl, v123_at x2 b q t c kl hl]
  exact max_comm _ _

theorem v133_at (x1 : (⟨S64x900x4, .f32⟩ : BufTy).Contents (Elt Ideal)) (x2 : (⟨S64x200x4, .f32⟩ : BufTy).Contents (Elt Ideal)) (b : Fin 64) (q : Fin 900) (t : Fin 200) :
    val_main_v133 (F := Ideal) x1 x2 (ix3 b q t)
      = max (max (hi (x1 (ix3 b q (0 : Fin 4))) (x1 (ix3 b q (2 : Fin 4)))) (hi (x2 (ix3 b t (0 : Fin 4))) (x2 (ix3 b t (2 : Fin 4)))) - min (lo (x1 (ix3 b q (0 : Fin 4))) (x1 (ix3 b q (2 : Fin 4)))) (lo (x2 (ix3 b t (0 : Fin 4))) (x2 (ix3 b t (2 : Fin 4))))) cZero := by
  rw [val_main_v133_apply, val_main_v132_apply]
  have e : idx_main_v132 (idx_main_v133 (ix3 b q t)) = ix4 b q t (0 : Fin 2) := by
    refine funext fun a => Fin.ext ?_
    have hq := q.isLt
    have ht := t.isLt
    match a with
    | ⟨0, _⟩ => show ((b.val * 900 + q.val) * 200 + t.val) / 180000 = b.val; omega
    | ⟨1, _⟩ => show ((b.val * 900 + q.val) * 200 + t.val) / 200 % 900 = q.val; omega
    | ⟨2, _⟩ => show ((b.val * 900 + q.val) * 200 + t.val) / 1 % 200 = t.val; omega
    | ⟨3, _⟩ => rfl
  rw [e, v131_at x1 x2 b q t 0 0 2 rfl rfl]
  rfl

theorem v135_at (x1 : (⟨S64x900x4, .f32⟩ : BufTy).Contents (Elt Ideal)) (x2 : (⟨S64x200x4, .f32⟩ : BufTy).Contents (Elt Ideal)) (b : Fin 64) (q : Fin 900) (t : Fin 200) :
    val_main_v135 (F := Ideal) x1 x2 (ix3 b q t)
      = max (max (hi (x1 (ix3 b q (1 : Fin 4))) (x1 (ix3 b q (3 : Fin 4)))) (hi (x2 (ix3 b t (1 : Fin 4))) (x2 (ix3 b t (3 : Fin 4)))) - min (lo (x1 (ix3 b q (1 : Fin 4))) (x1 (ix3 b q (3 : Fin 4)))) (lo (x2 (ix3 b t (1 : Fin 4))) (x2 (ix3 b t (3 : Fin 4))))) cZero := by
  rw [val_main_v135_apply, val_main_v134_apply]
  have e : idx_main_v134 (idx_main_v135 (ix3 b q t)) = ix4 b q t (1 : Fin 2) := by
    refine funext fun a => Fin.ext ?_
    have hq := q.isLt
    have ht := t.isLt
    match a with
    | ⟨0, _⟩ => show ((b.val * 900 + q.val) * 200 + t.val) / 180000 = b.val; omega
    | ⟨1, _⟩ => show ((b.val * 900 + q.val) * 200 + t.val) / 200 % 900 = q.val; omega
    | ⟨2, _⟩ => show ((b.val * 900 + q.val) * 200 + t.val) / 1 % 200 = t.val; omega
    | ⟨3, _⟩ => rfl
  rw [e, v131_at x1 x2 b q t 1 1 3 rfl rfl]
  rfl

/-- The enclosing box's area array at `(b, q, t)`. -/
theorem v136_at (x1 : (⟨S64x900x4, .f32⟩ : BufTy).Contents (Elt Ideal)) (x2 : (⟨S64x200x4, .f32⟩ : BufTy).Contents (Elt Ideal)) (b : Fin 64) (q : Fin 900) (t : Fin 200) :
    val_main_v136 (F := Ideal) x1 x2 (ix3 b q t) = hull (fun a => x1 (ix3 b q a)) (fun a => x2 (ix3 b t a)) := by
  rw [val_main_v136_apply, v133_at, v135_at]
  rfl

/-! ## The generalised IoU cost -/

/-- The reference's GIoU cost at (b, q, t): the negated generalised IoU of the query's box and the target's box. -/
theorem giou_eq (x1 : (⟨S64x900x4, .f32⟩ : BufTy).Contents (Elt Ideal)) (x2 : (⟨S64x200x4, .f32⟩ : BufTy).Contents (Elt Ideal))
    (b : Fin 64) (q : Fin 900) (t : Fin 200) :
    val_main_v140 (F := Ideal) x1 x2 (ix3 b q t) = -(giou (fun a => x1 (ix3 b q a)) (fun a => x2 (ix3 b t a))) := by
  -- IoU less the share of the enclosing box outside the union, negated; the quotients are the ideal division
  rw [val_main_v140_apply, val_main_v139_apply, val_main_v119_apply, val_main_v138_apply, val_main_v137_apply,
    v112_at, v118_at, v136_at]
  rfl

end Cert.MatchCost.RefBoxes

end
-- ==== Proof.RefValue.lean ====
/-
  The reference's result is the cost matrix: at every (b, q, t) its three cost stages are the specification's
  three costs of the query's score row and box and the target's box and class, and the result combines them as
  the specification does.
-/
import proofs.«403522_j82987358093468_2_alg».proof.Proof.RefTotal
import proofs.«403522_j82987358093468_2_alg».proof.Proof.RefClass
import proofs.«403522_j82987358093468_2_alg».proof.Proof.RefBoxes

noncomputable section

namespace Cert.MatchCost.RefValue

open Idealize.ShloMosaic Idealize.ShloMosaic.ValueIdx Cert.ReferenceIdeal Cert.ReferenceIdeal.ReadP Cert.MatchCost

/-- The reference's result stage, as a function of the four argument arrays, is the cost matrix, when every label
    word is its class number. -/
theorem result_eq (x0 : (⟨S64x900x92, .f32⟩ : BufTy).Contents (Elt Ideal)) (x1 : (⟨S64x900x4, .f32⟩ : BufTy).Contents (Elt Ideal))
    (x2 : (⟨S64x200x4, .f32⟩ : BufTy).Contents (Elt Ideal)) (x3 : (⟨S64x200, .i32⟩ : BufTy).Contents (Elt Ideal))
    (ℓ : Fin 64 → Fin 200 → Fin 92) (hℓ : ∀ (b : Fin 64) (t : Fin 200), x3 (ix2 b t) = BitVec.ofNat 32 (ℓ b t).val) :
    val_main_v148 (F := Ideal) x0 x1 x2 x3 = G x0 x1 x2 ℓ := by
  funext i
  obtain ⟨b, q, t, rfl⟩ : ∃ (b : Fin 64) (q : Fin 900) (t : Fin 200), i = ix3 b q t := ⟨i 0, i 1, i 2, eq_ix3 i⟩
  rw [G_ix3]
  exact RefTotal.total_of_pieces x0 x1 x2 x3 b q t _ _ _ _ (RefBoxes.l1_eq x1 x2 b q t) (RefClass.class_eq x0 x3 ℓ hℓ b q t)
    (RefBoxes.giou_eq x1 x2 b q t)

end Cert.MatchCost.RefValue

end
-- ==== Proof.lean ====
/-
  The kernel computes, one batch member per grid point, the matrix of matching costs between 900 queries and 200
  targets: 5 times the L1 distance of the two boxes, minus the softmax probability of the target's class in the
  query's score row, minus twice the generalised IoU of the two boxes. The reference computes the same matrix for
  all 64 batch members at once with jnp operations.

  The two programs differ in three places, and each is an identity on the extended reals that holds for every
  value, finite or not. (1) The class cost: the kernel multiplies the softmax matrix by the one-hot matrix of the
  labels (a matrix product into a zero accumulator), the reference gathers the entry the label names; a sum in
  which all terms but one are a product with zero is that one term. This needs every label to be a class number,
  0 ≤ label < 92, which the precondition states: outside that range the reference wraps or fills while the
  one-hot column is empty. (2) The L1 distance: the kernel adds four absolute differences from the left, the
  reference reduces over an axis of length four from zero. (3) Orders and spellings: the reference clips with
  max 0 x where the kernel has max x 0, negates where the kernel subtracts from zero, and takes one more
  maximum with −∞ over the row maximum.

  So both result arrays are one function `G` of the argument arrays (Proof/Spec.lean). The kernel's side: what a
  grid point writes back is a slab of `G` (Proof/KernelOut.lean over the three payload modules, Proof/KernelArray.lean),
  and the 64 slabs tile the array. The reference's side: its run read stretch by stretch (Proof/RefRunValue.lean)
  ends at the last stage of its operations, and that stage is `G` (Proof/RefValue.lean over the three cost modules).
  The frames of the two kernel programs are the generated frame certificates; the ideal pass rewrote nothing, so
  there is nothing to preserve.
-/
import proofs.«403522_j82987358093468_2_alg».proof.Defs
import proofs.«403522_j82987358093468_2_alg».proof.Proof.Gen.Kernel
import proofs.«403522_j82987358093468_2_alg».proof.Proof.Gen.Kernel.Skeleton
import proofs.«403522_j82987358093468_2_alg».proof.Proof.Gen.Kernel.Launch
import proofs.«403522_j82987358093468_2_alg».proof.Proof.Gen.Kernel.Points
import proofs.«403522_j82987358093468_2_alg».proof.Proof.Gen.Kernel.Frame
import proofs.«403522_j82987358093468_2_alg».proof.Proof.Gen.KernelIdeal
import proofs.«403522_j82987358093468_2_alg».proof.Proof.Gen.KernelIdeal.Skeleton
import proofs.«403522_j82987358093468_2_alg».proof.Proof.Gen.KernelIdeal.Launch
import proofs.«403522_j82987358093468_2_alg».proof.Proof.Gen.KernelIdeal.Points
import proofs.«403522_j82987358093468_2_alg».proof.Proof.Gen.KernelIdeal.Frame
import proofs.«403522_j82987358093468_2_alg».proof.Proof.Gen.ReferenceIdeal
import proofs.«403522_j82987358093468_2_alg».proof.Proof.Gen.Pre_finite_inputs
import proofs.«403522_j82987358093468_2_alg».proof.Proof.PreLabels
import proofs.«403522_j82987358093468_2_alg».proof.Proof.KernelArray
import proofs.«403522_j82987358093468_2_alg».proof.Proof.RefRunValue
import proofs.«403522_j82987358093468_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx Cert.MatchCost

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RunValue.run (F := Ideal) m ρ)

/-- A 32-bit word is the word of the natural number it denotes. -/
theorem word_eq_ofNat_toNat (w : BitVec 32) : w = BitVec.ofNat 32 w.toNat :=
  BitVec.eq_of_toNat_eq (by rw [BitVec.toNat_ofNat]; exact (Nat.mod_eq_of_lt w.isLt).symm)

/-- From memories that agree on the arguments and satisfy the precondition, both programs end with the cost matrix
    `G` of the arguments, the targets' classes read off the label words (each below 92 by the precondition). -/
theorem algebraic : Cert.algebraic_KernelIdeal_ReferenceIdeal := by
  intro m ρ m' ρ' hpre hagree
  have hlt : ∀ (c : Dev Cert.KernelIdeal.nD) (i : Cert.KernelIdeal.S64x200.Idx),
      (m ((c.tc : Thread Cert.KernelIdeal.nD Cert.KernelIdeal.τ).loc Cert.KernelIdeal.main_arg3) i).toNat < 92 :=
    fun c i => PreLabels.labels_lt _ _ _ _ (hpre c) i
  let ℓ : Dev Cert.KernelIdeal.nD → Fin 64 → Fin 200 → Fin 92 := fun c b t =>
    ⟨(m ((c.tc : Thread Cert.KernelIdeal.nD Cert.KernelIdeal.τ).loc Cert.KernelIdeal.main_arg3) (ix2 b t)).toNat, hlt c (ix2 b t)⟩
  have hℓ : ∀ (c : Dev Cert.KernelIdeal.nD) (b : Fin 64) (t : Fin 200),
      m ((c.tc : Thread Cert.KernelIdeal.nD Cert.KernelIdeal.τ).loc Cert.KernelIdeal.main_arg3) (ix2 b t) = BitVec.ofNat 32 (ℓ c b t).val :=
    fun c b t => word_eq_ofNat_toNat _
  refine ⟨fun c => KernelArray.Gm m c (ℓ c), KernelArray.run m ρ ℓ hℓ, ?_⟩
  refine (θ_run Cert.ReferenceIdeal.defs _ _).mono (fun _ h c => ⟨(h c).1.trans ?_, (h c).2⟩)
    (Cert.ReferenceIdeal.RunValue.run (F := Ideal) m' ρ')
  rw [(hagree c).1, (hagree c).2.1, (hagree c).2.2.1, (hagree c).2.2.2]
  exact RefValue.result_eq _ _ _ _ (ℓ c) (hℓ c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
